-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1200000x8 : Shape := ⟨2, ![1200000, 8]⟩
abbrev S1200000 : Shape := ⟨1, ![1200000]⟩
abbrev S100000 : Shape := ⟨1, ![100000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1200000x8 : S_.BroadcastsInDim S1200000x8 (![] : Fin 0 → Fin S1200000x8.rank)
  reducesTo_S1200000x8_S_d0_1 : S1200000x8.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg14 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg14
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg10 : FVec F S64 .f32) (main_arg11 : FVec F S64x128 .f32) (main_arg12 : FVec F S128 .f32) (main_arg13 : FVec F S128x1 .f32) (main_arg14 : FVec F S1 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x128 .f32 := Host.absf main_arg11
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg13
  let main_cst_18 : FVec F S_ .f32 := constant S_ .f32 0x7F800000#32
  let main_v50 : FVec F S128x1 .f32 := broadcastInDim S128x1 ![] bcast_S_S128x1 main_cst_18
  fn_part3 (F := F) main_arg14 main_v48 main_v49 main_v50

def fn_part1 {F : FTy → Type} [FloatOps F] (main_arg7 : FVec F S64x64 .f32) (main_arg8 : FVec F S64 .f32) (main_arg9 : FVec F S64x64 .f32) (main_arg10 : FVec F S64 .f32) (main_arg11 : FVec F S64x128 .f32) (main_arg12 : FVec F S128 .f32) (main_arg13 : FVec F S128x1 .f32) (main_arg14 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg7
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg9
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg10 main_arg11 main_arg12 main_arg13 main_arg14 main_v33

def fn {F : FTy → Type} [FloatOps F] (main_arg0 : FVec F S100000x64 .f32) (main_arg1 : FVec F S1200000x8 .f32) (main_arg2 : IVec S1200000 32) (main_arg3 : IVec S1200000 32) (main_arg4 : IVec S100000 32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x128 .f32) (main_arg12 : FVec F S128 .f32) (main_arg13 : FVec F S128x1 .f32) (main_arg14 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1200000x8 .f32 := Host.absf main_arg1
  let main_cst_0 : FVec F S_ .f32 := constant S_ .f32 0x7F800000#32
  let main_v5 : FVec F S1200000x8 .f32 := broadcastInDim S1200000x8 ![] bcast_S_S1200000x8 main_cst_0
  let main_v6 : IVec S1200000x8 1 := cmpf .olt main_v4 main_v5
  let main_c_1 : IVec S_ 1 := constantI S_ 1 1#1
  let main_v7 : IVec S_ 1 := (fun x v => Host.reduce IntOp.andi x v reducesTo_S1200000x8_S_d0_1 h_S_) main_v6 main_c_1
  let main_v8 : IVec S_ 1 := andi main_v3 main_v7
  let main_v9 : FVec F S64x64 .f32 := Host.absf main_arg5
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg8 main_arg9 main_arg10 main_arg11 main_arg12 main_arg13 main_arg14 main_v13 main_v16
-- ==== Kernel.lean ====
abbrev S100000x64 : Shape := ⟨2, ![100000, 64]⟩
abbrev S1200000x8 : Shape := ⟨2, ![1200000, 8]⟩
abbrev S1200000 : Shape := ⟨1, ![1200000]⟩
abbrev S100000 : Shape := ⟨1, ![100000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S_ : Shape := ⟨0, ![]⟩
abbrev S1200000x1 : Shape := ⟨2, ![1200000, 1]⟩
abbrev S1200000x64 : Shape := ⟨2, ![1200000, 64]⟩
abbrev S1x64 : Shape := ⟨2, ![1, 64]⟩
abbrev S1x128 : Shape := ⟨2, ![1, 128]⟩
abbrev S100000x1 : Shape := ⟨2, ![100000, 1]⟩
abbrev S2x256x128 : Shape := ⟨3, ![2, 256, 128]⟩
abbrev S5000x64 : Shape := ⟨2, ![5000, 64]⟩
abbrev S5000x1 : Shape := ⟨2, ![5000, 1]⟩
abbrev S1x256x128 : Shape := ⟨3, ![1, 256, 128]⟩
abbrev S256x128 : Shape := ⟨2, ![256, 128]⟩
abbrev S5000x128 : Shape := ⟨2, ![5000, 128]⟩
abbrev S5000x256 : Shape := ⟨2, ![5000, 256]⟩
abbrev S256x1 : Shape := ⟨2, ![256, 1]⟩
abbrev S1x1 : Shape := ⟨2, ![1, 1]⟩
abbrev S256 : Shape := ⟨1, ![256]⟩

abbrev nBuf : Space → Nat
  | .hbm => 43
  | .vmem => 17
  | .smem => 0
  | _ => 0

abbrev bufTy : (tb : Table) → Fin (tcTables nBuf tb) → BufTy
  | .hbm, ⟨0, _⟩ => ⟨S100000x64, .f32⟩
  | .hbm, ⟨1, _⟩ => ⟨S1200000x8, .f32⟩
  | .hbm, ⟨2, _⟩ => ⟨S1200000, .i32⟩
  | .hbm, ⟨3, _⟩ => ⟨S1200000, .i32⟩
  | .hbm, ⟨4, _⟩ => ⟨S100000, .i32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x128, .f32⟩
  | .hbm, ⟨12, _⟩ => ⟨S128, .f32⟩
  | .hbm, ⟨13, _⟩ => ⟨S128x1, .f32⟩
  | .hbm, ⟨14, _⟩ => ⟨S1, .f32⟩
  | .hbm, ⟨15, _⟩ => ⟨S100000x64, .bf16⟩
  | .hbm, ⟨16, _⟩ => ⟨S_, .i32⟩
  | .hbm, ⟨17, _⟩ => ⟨S1200000, .i32⟩
  | .hbm, ⟨18, _⟩ => ⟨S1200000, .i1⟩
  | .hbm, ⟨19, _⟩ => ⟨S_, .i32⟩
  | .hbm, ⟨20, _⟩ => ⟨S1200000, .i32⟩
  | .hbm, ⟨21, _⟩ => ⟨S1200000, .i32⟩
  | .hbm, ⟨22, _⟩ => ⟨S1200000, .i32⟩
  | .hbm, ⟨23, _⟩ => ⟨S1200000x1, .i32⟩
  | .hbm, ⟨24, _⟩ => ⟨S1200000x64, .bf16⟩
  | .hbm, ⟨25, _⟩ => ⟨S1200000x64, .f32⟩
  | .hbm, ⟨26, _⟩ => ⟨S_, .f32⟩
  | .hbm, ⟨27, _⟩ => ⟨S100000x64, .f32⟩
  | .hbm, ⟨28, _⟩ => ⟨S1200000x1, .i32⟩
  | .hbm, ⟨29, _⟩ => ⟨S100000x64, .f32⟩
  | .hbm, ⟨30, _⟩ => ⟨S1x64, .f32⟩
  | .hbm, ⟨31, _⟩ => ⟨S1x64, .f32⟩
  | .hbm, ⟨32, _⟩ => ⟨S1x64, .f32⟩
  | .hbm, ⟨33, _⟩ => ⟨S1x128, .f32⟩
  | .hbm, ⟨34, _⟩ => ⟨S100000x1, .i32⟩
  | .hbm, ⟨35, _⟩ => ⟨S2x256x128, .f32⟩
  | .hbm, ⟨36, _⟩ => ⟨S_, .f32⟩
  | .hbm, ⟨37, _⟩ => ⟨S256x128, .f32⟩
  | .hbm, ⟨38, _⟩ => ⟨S256x1, .f32⟩
  | .hbm, ⟨39, _⟩ => ⟨S1x1, .f32⟩
  | .hbm, ⟨40, _⟩ => ⟨S256x1, .f32⟩
  | .hbm, ⟨41, _⟩ => ⟨S256x1, .f32⟩
  | .hbm, ⟨42, _⟩ => ⟨S256, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .i32⟩
  | .local _ .vmem, ⟨5, _⟩ => ⟨S5000x1, .i32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S64x128, .f32⟩
  | .local _ .vmem, ⟨13, _⟩ => ⟨S1x128, .f32⟩
  | .local _ .vmem, ⟨14, _⟩ => ⟨S1x256x128, .f32⟩
  | .local _ .vmem, ⟨15, _⟩ => ⟨S1x256x128, .f32⟩
  | .local _ .vmem, ⟨16, _⟩ => ⟨S256x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![2, 10], ![false, false]⟩

def k0_cond2 (i : grid0.Coords) : BitVec 1 :=
  let arg1 : BitVec 32 := BitVec.ofNat 32 (i 1).val
  let c9_i32 : BitVec 32 := 9#32
  let v60 : BitVec 1 := Scalar.cmpi .eq arg1 c9_i32
  let v61 : BitVec 32 := Scalar.extui v60
  let c0_i32_33 : BitVec 32 := 0#32
  let v62 : BitVec 1 := Scalar.cmpi .ne v61 c0_i32_33
  v62

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S5000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  bitsLt_bf16_f32 : FTy.bits .bf16 < FTy.bits .f32
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  shapeCasts_S64_S1x64 : S64.ShapeCasts S1x64
  shapeCasts_S128_S1x128 : S128.ShapeCasts S1x128
  shapeCasts_S100000_S100000x1 : S100000.ShapeCasts S100000x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x256_d1_w32 : S5000x256.Iotas .tc 32 [1]
  broadcasts_S5000x1_S5000x256 : S5000x1.Broadcasts S5000x256
  natLt_1_32 : 1 < 32
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  reducesTo_S2x256x128_S256x128_d0 : S2x256x128.ReducesTo [0] S256x128
  h_S_ : 0 < S_.numel
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  shapeCasts_S256x1_S256 : S256x1.ShapeCasts S256
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  dot_S5000x64_S64x128_S5000x128_1_0_0_1_n_n_wf : DotDims.WF S5000x64 S64x128 S5000x128 [1] [0] [0] [1] [] []
  dot_S5000x256_S5000x128_S256x128_0_0_1_1_n_n_wf : DotDims.WF S5000x256 S5000x128 S256x128 [0] [0] [1] [1] [] []
  dot_S256x128_S128x1_S256x1_1_0_0_1_n_n_wf : DotDims.WF S256x128 S128x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .i32 = 32 ∨ (Rect.block (s := S100000x1) S5000x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x128.size a ≤ S64x128.size a
  hwx0_9 : ∀ i : grid0.Coords, EltTy.bits .f32 = 32 ∨ (Rect.block (s := S64x128) S64x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256x128.size a ≤ S2x256x128.size a
  hwx0_11 : ∀ i : grid0.Coords, EltTy.bits .f32 = 32 ∨ (Rect.block (s := S2x256x128) S1x256x128.size (cc0_transform_11 i) (hinb0_11 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x256_S5000x128_S256x128_0_0_1_1_n_n : DotDims S5000x256 S5000x128 S256x128 where
  lhsContracting := [0]
  rhsContracting := [0]
  lhsNonContracting := [1]
  rhsNonContracting := [1]
  lhsBatch := []
  rhsBatch := []
  wf := dot_S5000x256_S5000x128_S256x128_0_0_1_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

abbrev win0_0 : Pipeline.Window sig grid0 :=
  Pipeline.Window.ofSpec (Memref.whole main_v11) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S64x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v15) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v17) S1x256x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond2 i == 1#1) | ⟨_ + 12, h⟩ => absurd h (Nat.not_lt.2 (Nat.le_add_left _ _))

class Facts : Prop extends Facts₀ where

variable [Facts]
-- ==== ReferenceIdeal.lean ====
abbrev S100000x64 : Shape := ⟨2, ![100000, 64]⟩
abbrev S1200000x8 : Shape := ⟨2, ![1200000, 8]⟩
abbrev S1200000 : Shape := ⟨1, ![1200000]⟩
abbrev S100000 : Shape := ⟨1, ![100000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S_ : Shape := ⟨0, ![]⟩
abbrev S1200000x1 : Shape := ⟨2, ![1200000, 1]⟩
abbrev S1200000x64 : Shape := ⟨2, ![1200000, 64]⟩
abbrev S1x64 : Shape := ⟨2, ![1, 64]⟩
abbrev S100000x128 : Shape := ⟨2, ![100000, 128]⟩
abbrev S1x128 : Shape := ⟨2, ![1, 128]⟩
abbrev S256x128 : Shape := ⟨2, ![256, 128]⟩
abbrev S100000x1 : Shape := ⟨2, ![100000, 1]⟩
abbrev S256x1 : Shape := ⟨2, ![256, 1]⟩
abbrev S1x1 : Shape := ⟨2, ![1, 1]⟩
abbrev S256 : Shape := ⟨1, ![256]⟩

abbrev nBuf : Space → Nat
  | .hbm => 63
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1200000x8, .f32⟩
  | .hbm, ⟨2, _⟩ => ⟨S1200000, .i32⟩
  | .hbm, ⟨3, _⟩ => ⟨S1200000, .i32⟩
  | .hbm, ⟨4, _⟩ => ⟨S100000, .i32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x128, .f32⟩
  | .hbm, ⟨12, _⟩ => ⟨S128, .f32⟩
  | .hbm, ⟨13, _⟩ => ⟨S128x1, .f32⟩
  | .hbm, ⟨14, _⟩ => ⟨S1, .f32⟩
  | .hbm, ⟨15, _⟩ => ⟨S_, .i32⟩
  | .hbm, ⟨16, _⟩ => ⟨S1200000, .i32⟩
  | .hbm, ⟨17, _⟩ => ⟨S1200000, .i1⟩
  | .hbm, ⟨18, _⟩ => ⟨S_, .i32⟩
  | .hbm, ⟨19, _⟩ => ⟨S1200000, .i32⟩
  | .hbm, ⟨20, _⟩ => ⟨S1200000, .i32⟩
  | .hbm, ⟨21, _⟩ => ⟨S1200000, .i32⟩
  | .hbm, ⟨22, _⟩ => ⟨S1200000x1, .i32⟩
  | .hbm, ⟨23, _⟩ => ⟨S1200000x64, .f32⟩
  | .hbm, ⟨24, _⟩ => ⟨S_, .f32⟩
  | .hbm, ⟨25, _⟩ => ⟨S100000x64, .f32⟩
  | .hbm, ⟨26, _⟩ => ⟨S1200000x1, .i32⟩
  | .hbm, ⟨27, _⟩ => ⟨S100000x64, .f32⟩
  | .hbm, ⟨28, _⟩ => ⟨S100000x64, .f32⟩
  | .hbm, ⟨29, _⟩ => ⟨S1x64, .f32⟩
  | .hbm, ⟨30, _⟩ => ⟨S100000x64, .f32⟩
  | .hbm, ⟨31, _⟩ => ⟨S100000x64, .f32⟩
  | .hbm, ⟨32, _⟩ => ⟨S_, .f32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S1x64, .f32⟩
  | .hbm, ⟨37, _⟩ => ⟨S100000x64, .f32⟩
  | .hbm, ⟨38, _⟩ => ⟨S100000x64, .f32⟩
  | .hbm, ⟨39, _⟩ => ⟨S_, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S256x128, .f32⟩
  | .hbm, ⟨56, _⟩ => ⟨S100000x1, .i32⟩
  | .hbm, ⟨57, _⟩ => ⟨S256x128, .f32⟩
  | .hbm, ⟨58, _⟩ => ⟨S256x1, .f32⟩
  | .hbm, ⟨59, _⟩ => ⟨S1x1, .f32⟩
  | .hbm, ⟨60, _⟩ => ⟨S256x1, .f32⟩
  | .hbm, ⟨61, _⟩ => ⟨S256x1, .f32⟩
  | .hbm, ⟨62, _⟩ => ⟨S256, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call0_cst : Ref sig .tc := ⟨.hbm, 32, rfl⟩
abbrev main_call0_v0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call1_cst : Ref sig .tc := ⟨.hbm, 39, rfl⟩
abbrev main_call1_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_call2_cst : Ref sig .tc := ⟨.hbm, 47, rfl⟩
abbrev main_call2_v0 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_1 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S256x128 : S_.BroadcastsInDim S256x128 (![] : Fin 0 → Fin S256x128.rank)
  bcast_S100000_S100000x1_0 : S100000.BroadcastsInDim S100000x1 (![0] : Fin 1 → Fin S100000x1.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  shapeCasts_S256x1_S256 : S256x1.ShapeCasts S256
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  dot_S100000x64_S64x128_S100000x128_1_0_0_1_n_n_wf : DotDims.WF S100000x64 S64x128 S100000x128 [1] [0] [0] [1] [] []
  scatter_S256x128_S100000x1_S100000x128_1_0_0_1_wf : ScatterDims.WF S256x128 S100000x1 S100000x128 [1] [0] [0] 1
  dot_S256x128_S128x1_S256x1_1_0_0_1_n_n_wf : DotDims.WF S256x128 S128x1 S256x1 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

class Facts : Prop extends Facts₀ where

variable [Facts]
-- ==== Proof.KernelAcc.lean ====
/-
  What one grid point does to the carried accumulator and to the output block, as pure terms.

  The body has three control cases. At the first point of a core's sweep it stores the zero block into the
  accumulator and then adds the block's one-hot product to it; at a middle point it adds the product to what the
  point before left; at the last point it does the same and then copies the accumulator into the output block. In
  each case what the accumulator (and, at the last point, the output block) ends holding is the one covering
  store's value, a pure function of the point's input blocks and of the accumulator before.
-/
import proofs.«405252_j57526791962625_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each control case leaves, as the body's pure terms -/

/-- The update the body makes to the carried accumulator, as a function of the point's input blocks and of what the
    accumulator held: the accumulator plus the one-hot product of the block's output rows. -/
abbrev upd (x0 x1 : Vec F S5000x64 .f32) (x2 : Vec F S5000x1 .i32) (x3 : Vec F S64x64 .f32) (x4 : Vec F S1x64 .f32)
    (x5 : Vec F S64x64 .f32) (x6 : Vec F S1x64 .f32) (x7 : Vec F S64x64 .f32) (x8 : Vec F S1x64 .f32) (x9 : Vec F S64x128 .f32)
    (x10 : Vec F S1x128 .f32) (acc : Vec F S256x128 .f32) : Vec F S256x128 .f32 :=
  k0_pay1 (k0_pay4 x9) (k0_pay5 x0 x1 x3 x5 x7 x4 x6) x8 x10 x2 acc

/-- A middle point of a core's sweep leaves the accumulator updated over what the point before left. -/
theorem sout_B (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S1x256x128 .f32) (harg13 : arg13.IsWhole) (arg14 : Memref sig .tc .vmem S256x128 .f32) (harg14 : arg14.IsWhole) (hc0 : ¬cond0_0 i) (hc1 : ¬cond0_1 i)
    (x0 : Vec F S5000x64 .f32) (x1 : Vec F S5000x64 .f32) (x2 : Vec F S5000x1 .i32) (x3 : Vec F S64x64 .f32) (x4 : Vec F S1x64 .f32) (x5 : Vec F S64x64 .f32) (x6 : Vec F S1x64 .f32) (x7 : Vec F S64x64 .f32) (x8 : Vec F S1x64 .f32) (x9 : Vec F S64x128 .f32) (x10 : Vec F S1x128 .f32) (xs0 : Vec F S256x128 .f32) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0 = upd x0 x1 x2 x3 x4 x5 x6 x7 x8 x9 x10 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S5000x64) hz2, View.ld_unit_zero (S := S5000x1) hz2, View.ld_unit_zero (S := S64x64) hz2, View.ld_unit_zero (S := S1x64) hz2, View.ld_unit_zero (S := S64x128) hz2, View.ld_unit_zero (S := S1x128) hz2, View.ld_unit_zero (S := S256x128) hz2, View.ld_unit_zero (S := S1x256x128) hz3]

/-- The last point of a core's sweep leaves the accumulator updated in the same way … -/
theorem sout_C (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S1x256x128 .f32) (harg13 : arg13.IsWhole) (arg14 : Memref sig .tc .vmem S256x128 .f32) (harg14 : arg14.IsWhole) (hc0 : ¬cond0_0 i) (hc1 : cond0_1 i)
    (x0 : Vec F S5000x64 .f32) (x1 : Vec F S5000x64 .f32) (x2 : Vec F S5000x1 .i32) (x3 : Vec F S64x64 .f32) (x4 : Vec F S1x64 .f32) (x5 : Vec F S64x64 .f32) (x6 : Vec F S1x64 .f32) (x7 : Vec F S64x64 .f32) (x8 : Vec F S1x64 .f32) (x9 : Vec F S64x128 .f32) (x10 : Vec F S1x128 .f32) (xs0 : Vec F S256x128 .f32) :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0 = upd x0 x1 x2 x3 x4 x5 x6 x7 x8 x9 x10 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S5000x64) hz2, View.ld_unit_zero (S := S5000x1) hz2, View.ld_unit_zero (S := S64x64) hz2, View.ld_unit_zero (S := S1x64) hz2, View.ld_unit_zero (S := S64x128) hz2, View.ld_unit_zero (S := S1x128) hz2, View.ld_unit_zero (S := S256x128) hz2, View.ld_unit_zero (S := S1x256x128) hz3]

/-- … and copies the updated accumulator into the output block, with a leading unit axis. -/
theorem out_C (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S1x256x128 .f32) (harg13 : arg13.IsWhole) (arg14 : Memref sig .tc .vmem S256x128 .f32) (harg14 : arg14.IsWhole) (hc0 : ¬cond0_0 i) (hc1 : cond0_1 i)
    (x0 : Vec F S5000x64 .f32) (x1 : Vec F S5000x64 .f32) (x2 : Vec F S5000x1 .i32) (x3 : Vec F S64x64 .f32) (x4 : Vec F S1x64 .f32) (x5 : Vec F S64x64 .f32) (x6 : Vec F S1x64 .f32) (x7 : Vec F S64x64 .f32) (x8 : Vec F S1x64 .f32) (x9 : Vec F S64x128 .f32) (x10 : Vec F S1x128 .f32) (xs0 : Vec F S256x128 .f32) :
    out0_C_11 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0 = k0_pay2 (upd x0 x1 x2 x3 x4 x5 x6 x7 x8 x9 x10 xs0) := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S5000x64) hz2, View.ld_unit_zero (S := S5000x1) hz2, View.ld_unit_zero (S := S64x64) hz2, View.ld_unit_zero (S := S1x64) hz2, View.ld_unit_zero (S := S64x128) hz2, View.ld_unit_zero (S := S1x128) hz2, View.ld_unit_zero (S := S256x128) hz2, View.ld_unit_zero (S := S1x256x128) hz3, View.readCov_unit_zero (S := S256x128) _ hz2]

/-- The first point of a core's sweep resets the accumulator to the zero block and then updates it. -/
theorem sout_A (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S1x256x128 .f32) (harg13 : arg13.IsWhole) (arg14 : Memref sig .tc .vmem S256x128 .f32) (harg14 : arg14.IsWhole) (hc0 : cond0_0 i) (hc1 : ¬cond0_1 i)
    (x0 : Vec F S5000x64 .f32) (x1 : Vec F S5000x64 .f32) (x2 : Vec F S5000x1 .i32) (x3 : Vec F S64x64 .f32) (x4 : Vec F S1x64 .f32) (x5 : Vec F S64x64 .f32) (x6 : Vec F S1x64 .f32) (x7 : Vec F S64x64 .f32) (x8 : Vec F S1x64 .f32) (x9 : Vec F S64x128 .f32) (x10 : Vec F S1x128 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 = upd x0 x1 x2 x3 x4 x5 x6 x7 x8 x9 x10 k0_pay3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10)]
  unfold kernelRun0_A
  dsimp only
  sl_unfold_words
  rw [View.canon_cons_unit_zero (S := S256x128) hz2, View.readCov_unit_zero (S := S256x128) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S5000x64) hz2, View.ld_unit_zero (S := S5000x1) hz2, View.ld_unit_zero (S := S64x64) hz2, View.ld_unit_zero (S := S1x64) hz2, View.ld_unit_zero (S := S64x128) hz2, View.ld_unit_zero (S := S1x128) hz2, View.ld_unit_zero (S := S256x128) hz2, View.ld_unit_zero (S := S1x256x128) hz3, View.readCov_unit_zero (S := S256x128) _ hz2]

/-! ## The carried accumulator, point by point -/

variable (m : (ℓ : Loc nD τ sig) → Buf (Elt F) ℓ)

/-- The update at point `t`: `upd` at the point's input blocks. -/
abbrev step (c : Dev nD) (t : Fin cfg0.N) (acc : Vec F S256x128 .f32) : Vec F S256x128 .f32 :=
  upd (iblk m c 0 t) (iblk m c 1 t) (iblk m c 2 t) (iblk m c 3 t) (iblk m c 4 t) (iblk m c 5 t) (iblk m c 6 t)
    (iblk m c 7 t) (iblk m c 8 t) (iblk m c 9 t) (iblk m c 10 t) acc

/-- At the first point of a core's sweep the accumulator ends at the update of the zero block. -/
theorem acc_first (c : Dev nD) (t : Fin cfg0.N) (h0 : t.val % 10 = 0) :
    (outsAt0 m c t.val t.isLt).2 = step m c t k0_pay3 := by
  have h1 : ¬t.val % 10 = 9 := by omega
  rw [outsAt0_A m c t h0 h1]
  dsimp only
  exact sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- At every other point it ends at the update of what the point before left. -/
theorem acc_next (c : Dev nD) (t : Fin cfg0.N) (h0 : ¬t.val % 10 = 0) :
    (outsAt0 m c t.val t.isLt).2
      = step m c t (outsAt0 m c (t.val - 1) (Nat.lt_of_le_of_lt (Nat.sub_le _ _) t.isLt)).2 := by
  by_cases h1 : t.val % 10 = 9
  · rw [outsAt0_C m c t h0 h1]
    dsimp only
    exact sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t)
      (outsAt0 m c (t.val - 1) (Nat.lt_of_le_of_lt (Nat.sub_le _ _) t.isLt)).2
  · rw [outsAt0_B m c t h0 h1]
    dsimp only
    exact sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)
      (outsAt0 m c (t.val - 1) (Nat.lt_of_le_of_lt (Nat.sub_le _ _) t.isLt)).2

/-- At the last point of a core's sweep the output block holds the accumulator the point leaves. -/
theorem out_last (c : Dev nD) (t : Fin cfg0.N) (h1 : t.val % 10 = 9) :
    (outsAt0 m c t.val t.isLt).1 = k0_pay2 (outsAt0 m c t.val t.isLt).2 := by
  have h0 : ¬t.val % 10 = 0 := by omega
  rw [acc_next m c t h0, outsAt0_C m c t h0 h1]
  dsimp only
  exact out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t)
      (outsAt0 m c (t.val - 1) (Nat.lt_of_le_of_lt (Nat.sub_le _ _) t.isLt)).2

end Cert.KernelIdeal.Acc

end
-- ==== Proof.KernelFinal.lean ====
/-
  The accumulator carried across the grid, in closed form, and the array the pipeline leaves.

  Each core sweeps ten blocks of rows. The accumulator after a point is the update of what the point before left,
  and at the first point of a sweep the update of the zero block: a fold from the sweep's first point. Only the last
  point of a sweep copies the accumulator out, into that core's half of the `[2, 256, 128]` result; the two halves'
  blocks cover the result, so it ends holding the two sweeps' final accumulators.
-/
import proofs.«405252_j57526791962625_2_alg».proof.Proof.KernelAcc
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ)

/-! ## The accumulator as a fold from the sweep's first point -/

/-- The accumulator after point `10 q + j` (the point `j` of sweep `q`) is the fold over the sweep's points up to it: the
    update of the zero block at the sweep's first point, then one update per later point. -/
theorem acc_sweep (c : Dev nD) (q j : ℕ) (hj : j < 10) (h : 10 * q + j < cfg0.N) :
    (outsAt0 m c (10 * q + j) h).2
      = Pipeline.accAt (N := cfg0.N) (fun n h => step m c ⟨n, h⟩ k0_pay3) (fun n h acc => step m c ⟨n, h⟩ acc)
          (10 * q) j h :=
  Pipeline.eq_accAt (fun n h => (outsAt0 m c n h).2) 10 _ _
    (fun n h h0 => acc_first m c ⟨n, h⟩ h0) (fun n h hne => acc_next m c ⟨n + 1, h⟩ hne) q j hj h

/-! ## The pipeline's result array -/

/-- The accumulator after point `n`, for every natural `n` (past the grid: the zero block, never used). -/
def accOf (c : Dev nD) (n : ℕ) : Vec F S256x128 .f32 :=
  if h : n < cfg0.N then (outsAt0 m c n h).2 else k0_pay3

theorem accOf_eq (c : Dev nD) (t : Fin cfg0.N) : accOf m c t.val = (outsAt0 m c t.val t.isLt).2 := dif_pos t.isLt

/-- The result array `[2, 256, 128]`: its half `c'` is the accumulator after the last point `10 c' + 9` of that half's sweep. -/
def result (c : Dev nD) : Buf (Elt F) ((c : Thread nD τ).loc main_v17) :=
  fun i : S2x256x128.Idx => accOf m c (10 * (i 0).val + 9) (ix2 (i 1) (i 2))

/-- The output window's block index at point `t` is `(t / 10, 0, 0)`. -/
theorem idx11 : ∀ t : Fin cfg0.N, win0_11.index t (0 : Fin 3) = t.val / 10 ∧ win0_11.index t (1 : Fin 3) = 0 ∧ win0_11.index t (2 : Fin 3) = 0 :=
  (by decide +kernel : ∀ t : Fin grid0.N, win0_11.index t (0 : Fin 3) = t.val / 10 ∧ win0_11.index t (1 : Fin 3) = 0 ∧ win0_11.index t (2 : Fin 3) = 0)

/-- What a flushing point writes back is its block of the result array. -/
theorem flushed_eq (c : Dev nD) (t : Fin cfg0.N) (hf : (cfg0.win 11).flush t = true) :
    (dats m 0 c).flushed 11 t = ((cfg0.win 11).blk t).view.read (Elt F) (result m c) := by
  have h9 : t.val % 10 = 9 := (flush0_11 t).mp hf
  show (cfg0.win 11).cut (grid0.coords t) ((dats m 0 c).after 11 t) = _
  rw [after0_11, out_last m c t h9]
  funext y
  have h0 : (y 0).val < 1 := (y 0).isLt
  have e0 : ((((cfg0.win 11).blk t).view.emb y) 0).val = t.val / 10 := by
    show win0_11.index t 0 * 1 + 1 * (y 0).val = _
    rw [(idx11 t).1]; omega
  have e1 : ((((cfg0.win 11).blk t).view.emb y) 1).val = (y 1).val := by
    show win0_11.index t 1 * 256 + 1 * (y 1).val = _
    rw [(idx11 t).2.1]; omega
  have e2 : ((((cfg0.win 11).blk t).view.emb y) 2).val = (y 2).val := by
    show win0_11.index t 2 * 128 + 1 * (y 2).val = _
    rw [(idx11 t).2.2]; omega
  show shapeCast S1x256x128 (outsAt0 m c t.val t.isLt).2 shapeCasts_S256x128_S1x256x128 ((cfg0.win 11).xinj (grid0.coords t) y)
    = accOf m c (10 * ((((cfg0.win 11).blk t).view.emb y) 0).val + 9)
        (ix2 ((((cfg0.win 11).blk t).view.emb y) 1) ((((cfg0.win 11).blk t).view.emb y) 2))
  rw [e0, show 10 * (t.val / 10) + 9 = t.val by omega, accOf_eq]
  refine (shapeCast_apply _ shapeCasts_S256x128_S1x256x128 _
    (ix2 ((((cfg0.win 11).blk t).view.emb y) 1) ((((cfg0.win 11).blk t).view.emb y) 2)) ?_)
  rw [Shape.rowMajor_val_two, Shape.rowMajor_val_three]
  show (((cfg0.win 11).blk t).view.emb y 1).val * 128 + (((cfg0.win 11).blk t).view.emb y 2).val
    = ((y 0).val * 256 + (y 1).val) * 128 + (y 2).val
  rw [e1, e2]; omega

/-- So the result array ends holding the two accumulators: the two flushing points' blocks cover it. -/
theorem final (c : Dev nD) : (dats m 0 c).arrAt 11 cfg0.N = result m c :=
  (dats m 0 c).arrAt_eq_of_cover 11 (result m c) (flushed_eq m c) fun i => by
    have h2 : (i 0).val < 2 := (i 0).isLt
    have hN : cfg0.N = 20 := N_0
    have ht : 10 * (i 0).val + 9 < cfg0.N := by omega
    refine ⟨⟨10 * (i 0).val + 9, ht⟩, (flush0_11 _).mpr (by show (10 * (i 0).val + 9) % 10 = 9; omega), ?_⟩
    show i ∈ ((View.whole main_v17).slice (win0_11.rect ⟨10 * (i 0).val + 9, ht⟩)).set
    rw [View.set_slice_whole, Rect.mem_set_unit]
    have hidx := idx11 ⟨10 * (i 0).val + 9, ht⟩
    intro a
    match a with
    | ⟨0, _⟩ =>
      show win0_11.index ⟨10 * (i 0).val + 9, ht⟩ 0 * 1 ≤ (i 0).val ∧ (i 0).val < win0_11.index ⟨10 * (i 0).val + 9, ht⟩ 0 * 1 + 1
      rw [hidx.1]; show (10 * (i 0).val + 9) / 10 * 1 ≤ (i 0).val ∧ (i 0).val < (10 * (i 0).val + 9) / 10 * 1 + 1; omega
    | ⟨1, _⟩ =>
      have h1 : (i 1).val < 256 := (i 1).isLt
      show win0_11.index ⟨10 * (i 0).val + 9, ht⟩ 1 * 256 ≤ (i 1).val ∧ (i 1).val < win0_11.index ⟨10 * (i 0).val + 9, ht⟩ 1 * 256 + 256
      rw [hidx.2.1]; omega
    | ⟨2, _⟩ =>
      have h1 : (i 2).val < 128 := (i 2).isLt
      show win0_11.index ⟨10 * (i 0).val + 9, ht⟩ 2 * 128 ≤ (i 2).val ∧ (i 2).val < win0_11.index ⟨10 * (i 0).val + 9, ht⟩ 2 * 128 + 128
      rw [hidx.2.2]; omega

end Cert.KernelIdeal.Acc

end
-- ==== Proof.Spec.lean ====
/-
  The graph readout, row by row, on the extended reals.

  A node's output row is a function of that node's row of the aggregated features and of its own feature row
  alone: two dense branches (a matrix product, a bias, a clamp at zero) added, a dense layer with a clamp, and a
  last dense layer. The graph feature of graph `g` is the sum of the output rows of the nodes whose id word
  names `g`. The kernel sweeps the 100000 nodes as 2 × 10 blocks of 5000 rows; the sum over all nodes is the sum
  over the blocks of the sums over their rows, since addition of extended reals is commutative and associative.
-/
import Idealize.ShloMosaic.Lib.ValueIdx
import Idealize.ShloMosaic.PureOps.Ideal
import Idealize.ShloMosaic.PureOps.Ideal.Laws
import Mathlib.Logic.Equiv.Fin.Basic
import Mathlib.Algebra.BigOperators.Fin

noncomputable section

namespace Cert.Gcn

open Idealize.ShloMosaic Idealize.ShloMosaic.ValueIdx

/-- An `[r, c]` table and an `[n]` vector of extended reals. -/
abbrev Tab (r c : ℕ) : Type := (⟨2, ![r, c]⟩ : Shape).Idx → EReal
abbrev Vc (n : ℕ) : Type := (⟨1, ![n]⟩ : Shape).Idx → EReal

/-- One branch of the layer at node `n`, column `j`: row `n` of `A` against column `j` of `W`, plus the bias,
    clamped at zero. -/
def branch {R : ℕ} (A : Tab R 64) (W : Tab 64 64) (b : Vc 64) (n : Fin R) (j : Fin 64) : EReal :=
  max ((∑ i : Fin 64, A (ix2 n i) * W (ix2 i j)) + b (ix1 j)) 0

/-- The hidden layer's product at node `n`, column `k`, before its bias: the two branches added, against column `k`. -/
def hidden {R : ℕ} (agg nf : Tab R 64) (Wg Wr Wi : Tab 64 64) (bg br : Vc 64) (n : Fin R) (k : Fin 64) : EReal :=
  ∑ j : Fin 64, (branch agg Wg bg n j + branch nf Wr br n j) * Wi (ix2 j k)

/-- The node's output row: the hidden layer with its bias, clamped, against `Wo`, plus the last bias. -/
def nodeOut {R : ℕ} (agg nf : Tab R 64) (Wg Wr Wi : Tab 64 64) (Wo : Tab 64 128) (bg br bi : Vc 64) (bo : Vc 128)
    (n : Fin R) (f : Fin 128) : EReal :=
  (∑ k : Fin 64, max (hidden agg nf Wg Wr Wi bg br n k + bi (ix1 k)) 0 * Wo (ix2 k f)) + bo (ix1 f)

/-- The output row depends on row `n` of the two feature tables only. -/
theorem nodeOut_congr {R R' : ℕ} (agg nf : Tab R 64) (agg' nf' : Tab R' 64) (Wg Wr Wi : Tab 64 64) (Wo : Tab 64 128)
    (bg br bi : Vc 64) (bo : Vc 128) (n : Fin R) (n' : Fin R')
    (h1 : ∀ i, agg (ix2 n i) = agg' (ix2 n' i)) (h2 : ∀ i, nf (ix2 n i) = nf' (ix2 n' i)) (f : Fin 128) :
    nodeOut agg nf Wg Wr Wi Wo bg br bi bo n f = nodeOut agg' nf' Wg Wr Wi Wo bg br bi bo n' f := by
  unfold nodeOut hidden branch
  simp only [h1, h2]

/-- Row `r` of block `t` of the sweep is node `5000 t + r`. -/
def node (t : Fin 20) (r : Fin 5000) : Fin 100000 := ⟨5000 * t.val + r.val, by omega⟩

/-- The sum over the nodes is the sum over the two halves of the sweep, the ten blocks of each half and the
    rows of each block. -/
theorem sum_nodes (φ : Fin 100000 → EReal) :
    ∑ c : Fin 2, ∑ s : Fin 10, ∑ r : Fin 5000, φ (node ⟨10 * c.val + s.val, by omega⟩ r) = ∑ n : Fin 100000, φ n := by
  rw [← Equiv.sum_comp (((finProdFinEquiv (m := 2) (n := 10)).prodCongr (Equiv.refl (Fin 5000))).trans
    ((finProdFinEquiv (m := 20) (n := 5000)).trans (finCongr (by norm_num : 20 * 5000 = 100000)))) φ]
  rw [Fintype.sum_prod_type, Fintype.sum_prod_type]
  refine Finset.sum_congr rfl fun c _ => Finset.sum_congr rfl fun s _ => Finset.sum_congr rfl fun r _ =>
    congrArg φ (Fin.ext ?_)
  simp [node, finProdFinEquiv]
  omega

/-- A word names `g` (below 256) read signed exactly when it is the word of `g`. -/
theorem word_names_iff (w : BitVec 32) (g : ℕ) (hg : g < 256) : BitVec.ofNat 32 g = w ↔ w.toInt = (g : ℤ) := by
  constructor
  · rintro rfl
    have h2 := BitVec.toInt_eq_toNat_cond (BitVec.ofNat 32 g)
    rw [BitVec.toNat_ofNat, Nat.mod_eq_of_lt (by omega)] at h2
    rw [h2, if_pos (by omega)]
  · intro h
    apply BitVec.eq_of_toNat_eq
    rw [BitVec.toNat_ofNat]
    have h2 := BitVec.toInt_eq_toNat_cond w
    have := w.isLt
    split_ifs at h2 <;> omega

end Cert.Gcn

end
-- ==== Proof.LibMatmulRows.lean ====
/-
  A matrix product into a zero accumulator, read at an index, at the exact values.

  Two arrangements of the dimension numbers, over any extents. ROWS BY COLUMNS: `[R, K] · [K, C]`, the left
  operand contracted on its second axis and the right on its first; entry `(a, b)` is the sum over `k` of
  `l[a, k] · r[k, b]`. COLUMNS BY COLUMNS: `[K, G]ᵀ · [K, C]`, both operands contracted on their FIRST axis (a
  product with the left operand transposed, written without a transpose); entry `(g, f)` is the sum over `k` of
  `l[k, g] · r[k, f]`. In both the accumulator is the zero splat, so nothing else is added.
-/
import Idealize.ShloMosaic.Lib.ValueIdx
import Idealize.ShloMosaic.PureOps.Ideal
import Idealize.ShloMosaic.PureOps.Ideal.Laws

noncomputable section

namespace Cert.Gcn.Lib

open Idealize.ShloMosaic Idealize.ShloMosaic.ValueIdx

section RowsByColumns
variable {R K C : ℕ}

/-- The dimension numbers of `[R, K] · [K, C]`. -/
abbrev rowsDims (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ := ⟨[1], [0], [0], [1], [], [], wf⟩

variable (wf : DotDims.WF ⟨2, ![R, K]⟩ ⟨2, ![K, C]⟩ ⟨2, ![R, C]⟩ [1] [0] [0] [1] [] [])

theorem rows_lhs_0 (i : (⟨2, ![R, C]⟩ : Shape).Idx) (q : (rowsDims wf).contr.Idx) :
    ((rowsDims wf).lhsIdx i q 0).val = (i 0).val := by
  unfold DotDims.lhsIdx
  rw [dif_neg (show ¬(0 : Fin 2) ∈ (rowsDims wf).lhsBatch from List.not_mem_nil),
    dif_pos (show (0 : Fin 2) ∈ (rowsDims wf).lhsNonContracting from List.mem_singleton.mpr rfl)]
  rfl
theorem rows_lhs_1 (i : (⟨2, ![R, C]⟩ : Shape).Idx) (q : (rowsDims wf).contr.Idx) :
    ((rowsDims wf).lhsIdx i q 1).val = (q ⟨0, Nat.one_pos⟩).val :=
  (rowsDims wf).lhsIdx_val_of_single rfl i q
theorem rows_rhs_0 (i : (⟨2, ![R, C]⟩ : Shape).Idx) (q : (rowsDims wf).contr.Idx) :
    ((rowsDims wf).rhsIdx i q 0).val = (q ⟨0, Nat.one_pos⟩).val :=
  (rowsDims wf).rhsIdx_val_of_single rfl i q
theorem rows_rhs_1 (i : (⟨2, ![R, C]⟩ : Shape).Idx) (q : (rowsDims wf).contr.Idx) :
    ((rowsDims wf).rhsIdx i q 1).val = (i 1).val := by
  unfold DotDims.rhsIdx
  rw [dif_neg (show ¬(1 : Fin 2) ∈ (rowsDims wf).rhsBatch from List.not_mem_nil),
    dif_pos (show (1 : Fin 2) ∈ (rowsDims wf).rhsNonContracting from List.mem_singleton.mpr rfl)]
  rfl

/-- ROWS BY COLUMNS, into the zero splat, read at `(a, b)`. -/
theorem matmul_rows_apply {φ₁ φ₂ : FTy} (d : DotDims ⟨2, ![R, K]⟩ ⟨2, ![K, C]⟩ ⟨2, ![R, C]⟩) (hd : d = rowsDims wf)
    (prec : Option ContractPrecision) (l : FVec Ideal ⟨2, ![R, K]⟩ φ₁) (r : FVec Ideal ⟨2, ![K, C]⟩ φ₂) (a : Fin R) (b : Fin C) :
    FloatOps.matmul d prec l r (constant ⟨2, ![R, C]⟩ .f32 0x00000000#32) (ix2 a b) = ∑ k : Fin K, l (ix2 a k) * r (ix2 k b) := by
  subst hd
  rw [Ideal.matmul_constant_zero_apply, ← Equiv.sum_comp (contrEquiv1 (rowsDims wf) K rfl rfl).symm]
  refine Finset.sum_congr rfl fun k _ => ?_
  have hk := contrEquiv1_symm_val (rowsDims wf) K rfl rfl k
  have el : (rowsDims wf).lhsIdx (ix2 a b) ((contrEquiv1 (rowsDims wf) K rfl rfl).symm k) = ix2 a k :=
    funext fun ax => Fin.ext (by
      match ax with
      | ⟨0, _⟩ => exact rows_lhs_0 wf _ _
      | ⟨1, _⟩ => exact (rows_lhs_1 wf _ _).trans hk)
  have er : (rowsDims wf).rhsIdx (ix2 a b) ((contrEquiv1 (rowsDims wf) K rfl rfl).symm k) = ix2 k b :=
    funext fun ax => Fin.ext (by
      match ax with
      | ⟨0, _⟩ => exact (rows_rhs_0 wf _ _).trans hk
      | ⟨1, _⟩ => exact rows_rhs_1 wf _ _)
  rw [el, er]

end RowsByColumns

section ColumnsByColumns
variable {K G C : ℕ}

/-- The dimension numbers of `[K, G]ᵀ · [K, C]`: both operands contracted on their first axis. -/
abbrev colsDims (wf : DotDims.WF ⟨2, ![K, G]⟩ ⟨2, ![K, C]⟩ ⟨2, ![G, C]⟩ [0] [0] [1] [1] [] []) :
    DotDims ⟨2, ![K, G]⟩ ⟨2, ![K, C]⟩ ⟨2, ![G, C]⟩ := ⟨[0], [0], [1], [1], [], [], wf⟩

variable (wf : DotDims.WF ⟨2, ![K, G]⟩ ⟨2, ![K, C]⟩ ⟨2, ![G, C]⟩ [0] [0] [1] [1] [] [])

theorem cols_lhs_0 (i : (⟨2, ![G, C]⟩ : Shape).Idx) (q : (colsDims wf).contr.Idx) :
    ((colsDims wf).lhsIdx i q 0).val = (q ⟨0, Nat.one_pos⟩).val :=
  (colsDims wf).lhsIdx_val_of_single rfl i q
theorem cols_lhs_1 (i : (⟨2, ![G, C]⟩ : Shape).Idx) (q : (colsDims wf).contr.Idx) :
    ((colsDims wf).lhsIdx i q 1).val = (i 0).val := by
  unfold DotDims.lhsIdx
  rw [dif_neg (show ¬(1 : Fin 2) ∈ (colsDims wf).lhsBatch from List.not_mem_nil),
    dif_pos (show (1 : Fin 2) ∈ (colsDims wf).lhsNonContracting from List.mem_singleton.mpr rfl)]
  rfl
theorem cols_rhs_0 (i : (⟨2, ![G, C]⟩ : Shape).Idx) (q : (colsDims wf).contr.Idx) :
    ((colsDims wf).rhsIdx i q 0).val = (q ⟨0, Nat.one_pos⟩).val :=
  (colsDims wf).rhsIdx_val_of_single rfl i q
theorem cols_rhs_1 (i : (⟨2, ![G, C]⟩ : Shape).Idx) (q : (colsDims wf).contr.Idx) :
    ((colsDims wf).rhsIdx i q 1).val = (i 1).val := by
  unfold DotDims.rhsIdx
  rw [dif_neg (show ¬(1 : Fin 2) ∈ (colsDims wf).rhsBatch from List.not_mem_nil),
    dif_pos (show (1 : Fin 2) ∈ (colsDims wf).rhsNonContracting from List.mem_singleton.mpr rfl)]
  rfl

/-- COLUMNS BY COLUMNS, into the zero splat, read at `(g, f)`. -/
theorem matmul_cols_apply {φ₁ φ₂ : FTy} (d : DotDims ⟨2, ![K, G]⟩ ⟨2, ![K, C]⟩ ⟨2, ![G, C]⟩) (hd : d = colsDims wf)
    (prec : Option ContractPrecision) (l : FVec Ideal ⟨2, ![K, G]⟩ φ₁) (r : FVec Ideal ⟨2, ![K, C]⟩ φ₂) (g : Fin G) (f : Fin C) :
    FloatOps.matmul d prec l r (constant ⟨2, ![G, C]⟩ .f32 0x00000000#32) (ix2 g f) = ∑ k : Fin K, l (ix2 k g) * r (ix2 k f) := by
  subst hd
  rw [Ideal.matmul_constant_zero_apply, ← Equiv.sum_comp (contrEquiv1 (colsDims wf) K rfl rfl).symm]
  refine Finset.sum_congr rfl fun k _ => ?_
  have hk := contrEquiv1_symm_val (colsDims wf) K rfl rfl k
  have el : (colsDims wf).lhsIdx (ix2 g f) ((contrEquiv1 (colsDims wf) K rfl rfl).symm k) = ix2 k g :=
    funext fun ax => Fin.ext (by
      match ax with
      | ⟨0, _⟩ => exact (cols_lhs_0 wf _ _).trans hk
      | ⟨1, _⟩ => exact cols_lhs_1 wf _ _)
  have er : (colsDims wf).rhsIdx (ix2 g f) ((contrEquiv1 (colsDims wf) K rfl rfl).symm k) = ix2 k f :=
    funext fun ax => Fin.ext (by
      match ax with
      | ⟨0, _⟩ => exact (cols_rhs_0 wf _ _).trans hk
      | ⟨1, _⟩ => exact cols_rhs_1 wf _ _)
  rw [el, er]

end ColumnsByColumns

end Cert.Gcn.Lib

end
-- ==== Proof.KernelPayload.lean ====
/-
  The kernel body's arithmetic, read at an index.

  The body computes two values from the blocks it loads. The first is the hidden layer's product for the 5000 rows
  of a block: each of the two branches is a matrix product into a zero accumulator, a bias row spread over the
  rows and a clamp at zero; their sum is multiplied by the hidden layer's weights. Read at row r and column k it
  is the specification's hidden. The second is the accumulator plus the block's contribution to the graph
  features: the one-hot table (row r, column g is 1 when the word of g is row r's id word, else 0), transposed,
  against the block's output rows (the hidden layer with its bias, clamped, against the last weights, plus the
  last bias). Read at graph g and feature f it is the accumulator there plus the sum over the rows of the one-hot
  entry times the specification's nodeOut.
-/
import proofs.«405252_j57526791962625_2_alg».proof.Proof.Gen.KernelIdeal.Skeleton
import proofs.«405252_j57526791962625_2_alg».proof.Proof.Spec
import proofs.«405252_j57526791962625_2_alg».proof.Proof.LibMatmulRows
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Cert.Gcn Cert.Gcn.Lib Idealize.ShloMosaic Idealize.ShloMosaic.ValueIdx

/-- The scalar zero constant is the extended real 0. -/
theorem scalar_zero : (Scalar.ofBits .f32 0x00000000#32 : Ideal .f32) = 0 := by
  show Ideal.ofBits .f32 0x00000000#32 = 0
  exact Ideal.ofBits_zero_f32

/-- One branch read at (r, j): row r of x against column j of w, plus the bias at j, clamped at zero. -/
theorem branch_apply (x : FVec Ideal S5000x64 .f32) (w : FVec Ideal S64x64 .f32) (b : FVec Ideal S1x64 .f32)
    (r : Fin 5000) (j : Fin 64) :
    maximumf (addf (matmul dot_S5000x64_S64x64_S5000x64_1_0_0_1_n_n none (truncf .bf16 x bitsLt_bf16_f32)
          (truncf .bf16 w bitsLt_bf16_f32) (constant S5000x64 .f32 0x00000000#32))
        (broadcastTo S5000x64 (shapeCast S1x64 b shapeCasts_S1x64_S1x64) broadcasts_S1x64_S5000x64))
      (broadcast S5000x64 (Scalar.ofBits .f32 0x00000000#32)) (ix2 r j)
      = branch x w (fun i => b (ix2 (0 : Fin 1) (i 0))) r j := by
  rw [maximumf_apply, addf_apply, broadcast_apply, scalar_zero, shapeCast_self, broadcastTo_1b_ab_apply]
  refine congrArg (fun t => max (t + b (ix2 (0 : Fin 1) j)) 0) ?_
  exact matmul_rows_apply dot_S5000x64_S64x64_S5000x64_1_0_0_1_n_n_wf dot_S5000x64_S64x64_S5000x64_1_0_0_1_n_n rfl none _ _ r j

/-- The hidden layer's product read at (r, k): the two branches added, against column k of the weights. -/
theorem pay5_apply (x0 x1 : Vec Ideal S5000x64 .f32) (x3 x5 x7 : Vec Ideal S64x64 .f32) (x4 x6 : Vec Ideal S1x64 .f32)
    (r : Fin 5000) (k : Fin 64) :
    k0_pay5 (F := Ideal) x0 x1 x3 x5 x7 x4 x6 (ix2 r k)
      = hidden x0 x1 x3 x5 x7 (fun i => x4 (ix2 (0 : Fin 1) (i 0))) (fun i => x6 (ix2 (0 : Fin 1) (i 0))) r k := by
  unfold k0_pay5
  refine (matmul_rows_apply dot_S5000x64_S64x64_S5000x64_1_0_0_1_n_n_wf dot_S5000x64_S64x64_S5000x64_1_0_0_1_n_n rfl none _ _ r k).trans ?_
  unfold Cert.Gcn.hidden
  refine Finset.sum_congr rfl fun j _ => ?_
  rw [truncf_apply, truncf_apply, addf_apply, shapeCast_self, branch_apply, branch_apply]

/-- A bit widened to a word and read signed, as an extended real, is 1 or 0. -/
theorem bit_word (c : Bool) : (((BitVec.setWidth 32 (BitVec.ofBool c)).toInt : ℝ) : EReal) = if c then 1 else 0 := by
  cases c
  · have h : (BitVec.setWidth 32 (BitVec.ofBool false)).toInt = 0 := by decide
    rw [h]; simp
  · have h : (BitVec.setWidth 32 (BitVec.ofBool true)).toInt = 1 := by decide
    rw [h]; simp

/-- The one-hot entry (r, g): 1 when the word of g is the id word of row r, else 0. -/
theorem onehot_apply (ids : IVec S5000x1 32) (r : Fin 5000) (g : Fin 256) :
    (truncf .bf16 (sitofp .f32 (extui 32 (cmpi .eq (iota .tc S5000x256 32 [1] iota_S5000x256_d1_w32)
        (broadcastTo S5000x256 (shapeCast S5000x1 ids shapeCasts_S5000x1_S5000x1) broadcasts_S5000x1_S5000x256)) natLt_1_32)
        : FVec Ideal S5000x256 .f32) bitsLt_bf16_f32 : FVec Ideal S5000x256 .bf16) (ix2 r g)
      = if BitVec.ofNat 32 g.val = ids (ix2 r (0 : Fin 1)) then (1 : EReal) else 0 := by
  have hb : broadcastTo S5000x256 (shapeCast S5000x1 ids shapeCasts_S5000x1_S5000x1) broadcasts_S5000x1_S5000x256 (ix2 r g)
      = ids (ix2 r (0 : Fin 1)) := by
    rw [shapeCast_self]
    refine broadcastTo_apply ids broadcasts_S5000x1_S5000x256 (ix2 r g) (ix2 r (0 : Fin 1)) fun a => ?_
    match a with
    | ⟨0, _⟩ => rfl
    | ⟨1, _⟩ => rfl
  have hi : iota .tc S5000x256 32 [1] iota_S5000x256_d1_w32 (ix2 r g) = BitVec.ofNat 32 g.val :=
    iota_single_apply .tc S5000x256 32 1 iota_S5000x256_d1_w32 (ix2 r g)
  show (((BitVec.setWidth 32 (IntOp.cmpi .eq (iota .tc S5000x256 32 [1] iota_S5000x256_d1_w32 (ix2 r g))
      (broadcastTo S5000x256 (shapeCast S5000x1 ids shapeCasts_S5000x1_S5000x1) broadcasts_S5000x1_S5000x256 (ix2 r g)))).toInt : ℝ) : EReal) = _
  rw [hb, hi]
  show (((BitVec.setWidth 32 (BitVec.ofBool (BitVec.ofNat 32 g.val == ids (ix2 r (0 : Fin 1))))).toInt : ℝ) : EReal) = _
  rw [bit_word]
  simp only [beq_iff_eq]

/-- The output row read at (r, f): the hidden product with its bias row, clamped, against column f of the last
    weights, plus the last bias at f. -/
theorem out_apply (h : FVec Ideal S5000x64 .f32) (bi : FVec Ideal S1x64 .f32) (wo : FVec Ideal S64x128 .f32)
    (bo : FVec Ideal S1x128 .f32) (r : Fin 5000) (f : Fin 128) :
    (truncf .bf16 (addf (matmul dot_S5000x64_S64x128_S5000x128_1_0_0_1_n_n none
          (truncf .bf16 (maximumf (addf h (broadcastTo S5000x64 (shapeCast S1x64 bi shapeCasts_S1x64_S1x64) broadcasts_S1x64_S5000x64))
            (broadcast S5000x64 (Scalar.ofBits .f32 0x00000000#32))) bitsLt_bf16_f32)
          (truncf .bf16 wo bitsLt_bf16_f32) (constant S5000x128 .f32 0x00000000#32))
        (broadcastTo S5000x128 (shapeCast S1x128 bo shapeCasts_S1x128_S1x128) broadcasts_S1x128_S5000x128)) bitsLt_bf16_f32
        : FVec Ideal S5000x128 .bf16) (ix2 r f)
      = (∑ k : Fin 64, max (h (ix2 r k) + bi (ix2 (0 : Fin 1) k)) 0 * wo (ix2 k f)) + bo (ix2 (0 : Fin 1) f) := by
  rw [truncf_apply, addf_apply, shapeCast_self bo, broadcastTo_1b_ab_apply]
  refine congrArg (fun t => t + bo (ix2 (0 : Fin 1) f)) ?_
  refine (matmul_rows_apply dot_S5000x64_S64x128_S5000x128_1_0_0_1_n_n_wf dot_S5000x64_S64x128_S5000x128_1_0_0_1_n_n rfl none _ _ r f).trans ?_
  refine Finset.sum_congr rfl fun k _ => ?_
  rw [truncf_apply, truncf_apply, maximumf_apply, addf_apply, broadcast_apply, scalar_zero, shapeCast_self bi, broadcastTo_1b_ab_apply]

/-- The accumulator's update read at (g, f): the accumulator there plus, over the block's rows, the one-hot entry
    of row r and graph g times row r's output at f. -/
theorem pay1_apply (x0 x1 : Vec Ideal S5000x64 .f32) (x2 : Vec Ideal S5000x1 .i32) (x3 x5 x7 : Vec Ideal S64x64 .f32)
    (x4 x6 x8 : Vec Ideal S1x64 .f32) (x9 : Vec Ideal S64x128 .f32) (x10 : Vec Ideal S1x128 .f32)
    (acc : Vec Ideal S256x128 .f32) (g : Fin 256) (f : Fin 128) :
    k0_pay1 (F := Ideal) (k0_pay4 x9) (k0_pay5 x0 x1 x3 x5 x7 x4 x6) x8 x10 x2 acc (ix2 g f)
      = acc (ix2 g f) + ∑ r : Fin 5000, (if BitVec.ofNat 32 g.val = x2 (ix2 r (0 : Fin 1)) then (1 : EReal) else 0)
          * nodeOut x0 x1 x3 x5 x7 x9 (fun i => x4 (ix2 (0 : Fin 1) (i 0))) (fun i => x6 (ix2 (0 : Fin 1) (i 0)))
              (fun i => x8 (ix2 (0 : Fin 1) (i 0))) (fun i => x10 (ix2 (0 : Fin 1) (i 0))) r f := by
  unfold k0_pay1 k0_pay4
  refine (congrFun (shapeCast_self _ _) (ix2 g f)).trans ?_
  refine (addf_apply _ _ _).trans ?_
  refine congrArg (fun t => acc (ix2 g f) + t) ?_
  refine (matmul_cols_apply dot_S5000x256_S5000x128_S256x128_0_0_1_1_n_n_wf dot_S5000x256_S5000x128_S256x128_0_0_1_1_n_n rfl none _ _ g f).trans ?_
  refine Finset.sum_congr rfl fun r _ => ?_
  rw [onehot_apply, out_apply]
  unfold Cert.Gcn.nodeOut
  simp only [pay5_apply]

end Cert.KernelIdeal.Payload

end
-- ==== Proof.KernelBlocks.lean ====
import proofs.«405252_j57526791962625_2_alg».proof.Proof.Gen.KernelIdeal.Frame
import proofs.«405252_j57526791962625_2_alg».proof.Proof.Gen.ReferenceIdeal.Read
import Idealize.ShloMosaic.Lib.Pipeline.Value
import Idealize.ShloMosaic.Lib.ValueLayout
import Idealize.ShloMosaic.Lib.StableHlo.Run
import Idealize.ShloMosaic.Lib.Tactic

/-
  The kernel's blocks as rows of its arrays, and the arrays the host wrote before the region.

  The sweep has 20 points. At point `t` the three row windows (the aggregated features, the node features, the
  graph ids) hold rows `5000 t … 5000 t + 4999` of their arrays; the eight parameter windows hold their whole
  arrays at every point. The bias rows are the bias vectors with a unit axis in front, the id column is the id
  vector with a unit axis behind, and the aggregated features are the reference's accumulating scatter of the
  looked-up rows: at the exact values a format change is the identity.
-/

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx

variable {F : FTy → Type} [FloatOps F] (m : (ℓ : Loc nD τ sig) → Buf (Elt F) ℓ)

/-! ## The block indices, decided once over the grid -/

/-- At point `t` the aggregated features' window is on block `(t, 0)`. -/
theorem idx0 : ∀ t : Fin cfg0.N, win0_0.index t (0 : Fin 2) = t.val ∧ win0_0.index t (1 : Fin 2) = 0 :=
  (by decide +kernel : ∀ t : Fin grid0.N, _)

/-- At point `t` the node features' window is on block `(t, 0)`. -/
theorem idx1 : ∀ t : Fin cfg0.N, win0_1.index t (0 : Fin 2) = t.val ∧ win0_1.index t (1 : Fin 2) = 0 :=
  (by decide +kernel : ∀ t : Fin grid0.N, _)

/-- At point `t` the graph ids' window is on block `(t, 0)`. -/
theorem idx2 : ∀ t : Fin cfg0.N, win0_2.index t (0 : Fin 2) = t.val ∧ win0_2.index t (1 : Fin 2) = 0 :=
  (by decide +kernel : ∀ t : Fin grid0.N, _)

/-- At every point the first branch's weight window is on block `(0, 0)`. -/
theorem idx3 : ∀ t : Fin cfg0.N, win0_3.index t (0 : Fin 2) = 0 ∧ win0_3.index t (1 : Fin 2) = 0 :=
  (by decide +kernel : ∀ t : Fin grid0.N, _)

/-- At every point the first branch's bias window is on block `(0, 0)`. -/
theorem idx4 : ∀ t : Fin cfg0.N, win0_4.index t (0 : Fin 2) = 0 ∧ win0_4.index t (1 : Fin 2) = 0 :=
  (by decide +kernel : ∀ t : Fin grid0.N, _)

/-- At every point the second branch's weight window is on block `(0, 0)`. -/
theorem idx5 : ∀ t : Fin cfg0.N, win0_5.index t (0 : Fin 2) = 0 ∧ win0_5.index t (1 : Fin 2) = 0 :=
  (by decide +kernel : ∀ t : Fin grid0.N, _)

/-- At every point the second branch's bias window is on block `(0, 0)`. -/
theorem idx6 : ∀ t : Fin cfg0.N, win0_6.index t (0 : Fin 2) = 0 ∧ win0_6.index t (1 : Fin 2) = 0 :=
  (by decide +kernel : ∀ t : Fin grid0.N, _)

/-- At every point the hidden layer's weight window is on block `(0, 0)`. -/
theorem idx7 : ∀ t : Fin cfg0.N, win0_7.index t (0 : Fin 2) = 0 ∧ win0_7.index t (1 : Fin 2) = 0 :=
  (by decide +kernel : ∀ t : Fin grid0.N, _)

/-- At every point the hidden layer's bias window is on block `(0, 0)`. -/
theorem idx8 : ∀ t : Fin cfg0.N, win0_8.index t (0 : Fin 2) = 0 ∧ win0_8.index t (1 : Fin 2) = 0 :=
  (by decide +kernel : ∀ t : Fin grid0.N, _)

/-- At every point the last layer's weight window is on block `(0, 0)`. -/
theorem idx9 : ∀ t : Fin cfg0.N, win0_9.index t (0 : Fin 2) = 0 ∧ win0_9.index t (1 : Fin 2) = 0 :=
  (by decide +kernel : ∀ t : Fin grid0.N, _)

/-- At every point the last layer's bias window is on block `(0, 0)`. -/
theorem idx10 : ∀ t : Fin cfg0.N, win0_10.index t (0 : Fin 2) = 0 ∧ win0_10.index t (1 : Fin 2) = 0 :=
  (by decide +kernel : ∀ t : Fin grid0.N, _)

/-! ## The row windows -/

/-- Row `r` of block `t` of the sweep is node `5000 t + r`. -/
def node (t : Fin cfg0.N) (r : Fin 5000) : Fin 100000 :=
  ⟨5000 * t.val + r.val, by have := t.isLt; have h : cfg0.N = 20 := N_0; omega⟩

/-- The aggregated features' block at point `t`, read at `(r, i)`, is the array at `(5000 t + r, i)`. -/
theorem blk0_apply (c : Dev nD) (t : Fin cfg0.N) (r : Fin 5000) (i : Fin 64) :
    iblk m c 0 t (ix2 r i) = V m c main_v11 (ix2 (node t r) i) := by
  unfold iblk
  rw [View.read_apply]
  show V m c main_v11 _ = V m c main_v11 _
  refine congrArg (V m c main_v11) (funext fun a => Fin.ext ?_)
  match a with
  | ⟨0, _⟩ => show win0_0.index t 0 * 5000 + 1 * r.val = 5000 * t.val + r.val; rw [(idx0 t).1]; omega
  | ⟨1, _⟩ => show win0_0.index t 1 * 64 + 1 * i.val = i.val; rw [(idx0 t).2]; omega

/-- The node features' block at point `t`, read at `(r, i)`, is the array at `(5000 t + r, i)`. -/
theorem blk1_apply (c : Dev nD) (t : Fin cfg0.N) (r : Fin 5000) (i : Fin 64) :
    iblk m c 1 t (ix2 r i) = V m c main_arg0 (ix2 (node t r) i) := by
  unfold iblk
  rw [View.read_apply]
  show V m c main_arg0 _ = V m c main_arg0 _
  refine congrArg (V m c main_arg0) (funext fun a => Fin.ext ?_)
  match a with
  | ⟨0, _⟩ => show win0_1.index t 0 * 5000 + 1 * r.val = 5000 * t.val + r.val; rw [(idx1 t).1]; omega
  | ⟨1, _⟩ => show win0_1.index t 1 * 64 + 1 * i.val = i.val; rw [(idx1 t).2]; omega

/-- The graph ids' block at point `t`, read at `(r, 0)`, is the id column at `(5000 t + r, 0)`. -/
theorem blk2_apply (c : Dev nD) (t : Fin cfg0.N) (r : Fin 5000) :
    iblk m c 2 t (ix2 r (0 : Fin 1)) = V m c main_v16 (ix2 (node t r) (0 : Fin 1)) := by
  unfold iblk
  rw [View.read_apply]
  show V m c main_v16 _ = V m c main_v16 _
  refine congrArg (V m c main_v16) (funext fun a => Fin.ext ?_)
  match a with
  | ⟨0, _⟩ => show win0_2.index t 0 * 5000 + 1 * r.val = 5000 * t.val + r.val; rw [(idx2 t).1]; omega
  | ⟨1, _⟩ => show win0_2.index t 1 * 1 + 1 * 0 = 0; rw [(idx2 t).2]

/-! ## The parameter windows -/

/-- The first branch's weight block at every point is the whole array. -/
theorem blk3_eq (c : Dev nD) (t : Fin cfg0.N) : (iblk m c 3 t : S64x64.Idx → F .f32) = V m c main_arg5 := by
  funext j
  unfold iblk
  rw [View.read_apply]
  show V m c main_arg5 _ = V m c main_arg5 _
  refine congrArg (V m c main_arg5) (funext fun a => Fin.ext ?_)
  match a with
  | ⟨0, _⟩ => show win0_3.index t 0 * 64 + 1 * (j 0).val = (j 0).val; rw [(idx3 t).1]; omega
  | ⟨1, _⟩ => show win0_3.index t 1 * 64 + 1 * (j 1).val = (j 1).val; rw [(idx3 t).2]; omega

/-- The second branch's weight block at every point is the whole array. -/
theorem blk5_eq (c : Dev nD) (t : Fin cfg0.N) : (iblk m c 5 t : S64x64.Idx → F .f32) = V m c main_arg7 := by
  funext j
  unfold iblk
  rw [View.read_apply]
  show V m c main_arg7 _ = V m c main_arg7 _
  refine congrArg (V m c main_arg7) (funext fun a => Fin.ext ?_)
  match a with
  | ⟨0, _⟩ => show win0_5.index t 0 * 64 + 1 * (j 0).val = (j 0).val; rw [(idx5 t).1]; omega
  | ⟨1, _⟩ => show win0_5.index t 1 * 64 + 1 * (j 1).val = (j 1).val; rw [(idx5 t).2]; omega

/-- The hidden layer's weight block at every point is the whole array. -/
theorem blk7_eq (c : Dev nD) (t : Fin cfg0.N) : (iblk m c 7 t : S64x64.Idx → F .f32) = V m c main_arg9 := by
  funext j
  unfold iblk
  rw [View.read_apply]
  show V m c main_arg9 _ = V m c main_arg9 _
  refine congrArg (V m c main_arg9) (funext fun a => Fin.ext ?_)
  match a with
  | ⟨0, _⟩ => show win0_7.index t 0 * 64 + 1 * (j 0).val = (j 0).val; rw [(idx7 t).1]; omega
  | ⟨1, _⟩ => show win0_7.index t 1 * 64 + 1 * (j 1).val = (j 1).val; rw [(idx7 t).2]; omega

/-- The last layer's weight block at every point is the whole array. -/
theorem blk9_eq (c : Dev nD) (t : Fin cfg0.N) : (iblk m c 9 t : S64x128.Idx → F .f32) = V m c main_arg11 := by
  funext j
  unfold iblk
  rw [View.read_apply]
  show V m c main_arg11 _ = V m c main_arg11 _
  refine congrArg (V m c main_arg11) (funext fun a => Fin.ext ?_)
  match a with
  | ⟨0, _⟩ => show win0_9.index t 0 * 64 + 1 * (j 0).val = (j 0).val; rw [(idx9 t).1]; omega
  | ⟨1, _⟩ => show win0_9.index t 1 * 128 + 1 * (j 1).val = (j 1).val; rw [(idx9 t).2]; omega

/-- The first branch's bias block at every point is the whole array. -/
theorem blk4_eq (c : Dev nD) (t : Fin cfg0.N) : (iblk m c 4 t : S1x64.Idx → F .f32) = V m c main_v12 := by
  funext j
  unfold iblk
  rw [View.read_apply]
  show V m c main_v12 _ = V m c main_v12 _
  refine congrArg (V m c main_v12) (funext fun a => Fin.ext ?_)
  match a with
  | ⟨0, _⟩ => show win0_4.index t 0 * 1 + 1 * (j 0).val = (j 0).val; rw [(idx4 t).1]; omega
  | ⟨1, _⟩ => show win0_4.index t 1 * 64 + 1 * (j 1).val = (j 1).val; rw [(idx4 t).2]; omega

/-- The second branch's bias block at every point is the whole array. -/
theorem blk6_eq (c : Dev nD) (t : Fin cfg0.N) : (iblk m c 6 t : S1x64.Idx → F .f32) = V m c main_v13 := by
  funext j
  unfold iblk
  rw [View.read_apply]
  show V m c main_v13 _ = V m c main_v13 _
  refine congrArg (V m c main_v13) (funext fun a => Fin.ext ?_)
  match a with
  | ⟨0, _⟩ => show win0_6.index t 0 * 1 + 1 * (j 0).val = (j 0).val; rw [(idx6 t).1]; omega
  | ⟨1, _⟩ => show win0_6.index t 1 * 64 + 1 * (j 1).val = (j 1).val; rw [(idx6 t).2]; omega

/-- The hidden layer's bias block at every point is the whole array. -/
theorem blk8_eq (c : Dev nD) (t : Fin cfg0.N) : (iblk m c 8 t : S1x64.Idx → F .f32) = V m c main_v14 := by
  funext j
  unfold iblk
  rw [View.read_apply]
  show V m c main_v14 _ = V m c main_v14 _
  refine congrArg (V m c main_v14) (funext fun a => Fin.ext ?_)
  match a with
  | ⟨0, _⟩ => show win0_8.index t 0 * 1 + 1 * (j 0).val = (j 0).val; rw [(idx8 t).1]; omega
  | ⟨1, _⟩ => show win0_8.index t 1 * 64 + 1 * (j 1).val = (j 1).val; rw [(idx8 t).2]; omega

/-- The last layer's bias block at every point is the whole array. -/
theorem blk10_eq (c : Dev nD) (t : Fin cfg0.N) : (iblk m c 10 t : S1x128.Idx → F .f32) = V m c main_v15 := by
  funext j
  unfold iblk
  rw [View.read_apply]
  show V m c main_v15 _ = V m c main_v15 _
  refine congrArg (V m c main_v15) (funext fun a => Fin.ext ?_)
  match a with
  | ⟨0, _⟩ => show win0_10.index t 0 * 1 + 1 * (j 0).val = (j 0).val; rw [(idx10 t).1]; omega
  | ⟨1, _⟩ => show win0_10.index t 1 * 128 + 1 * (j 1).val = (j 1).val; rw [(idx10 t).2]; omega

/-! ## The arrays the host wrote before the region -/

/-- The first branch's bias row is the bias vector with a unit axis in front: at `(0, j)` it reads the vector at `j`. -/
theorem V_bias12 (c : Dev nD) (j : Fin 64) :
    V m c main_v12 (ix2 (0 : Fin 1) j) = m ((c : Thread nD τ).loc main_arg6) (ix1 j) := by
  have e : (V m c main_v12 : S1x64.Idx → F .f32)
      = shapeCast S1x64 (m ((c : Thread nD τ).loc main_arg6) : S64.Idx → F .f32) shapeCasts_S64_S1x64 := by
    dsimp only [Gen.V, Gen.V0]
    simp only [Gen.hostOps0, List.flatten_cons, List.flatten_nil, List.append_nil, List.cons_append, List.nil_append]
    after_results
    rfl
  exact (congrFun e _).trans (shapeCast_a_1a_apply _ _ 0 j)

/-- The second branch's bias row is the bias vector with a unit axis in front: at `(0, j)` it reads the vector at `j`. -/
theorem V_bias13 (c : Dev nD) (j : Fin 64) :
    V m c main_v13 (ix2 (0 : Fin 1) j) = m ((c : Thread nD τ).loc main_arg8) (ix1 j) := by
  have e : (V m c main_v13 : S1x64.Idx → F .f32)
      = shapeCast S1x64 (m ((c : Thread nD τ).loc main_arg8) : S64.Idx → F .f32) shapeCasts_S64_S1x64 := by
    dsimp only [Gen.V, Gen.V0]
    simp only [Gen.hostOps0, List.flatten_cons, List.flatten_nil, List.append_nil, List.cons_append, List.nil_append]
    after_results
    rfl
  exact (congrFun e _).trans (shapeCast_a_1a_apply _ _ 0 j)

/-- The hidden layer's bias row is the bias vector with a unit axis in front: at `(0, j)` it reads the vector at `j`. -/
theorem V_bias14 (c : Dev nD) (j : Fin 64) :
    V m c main_v14 (ix2 (0 : Fin 1) j) = m ((c : Thread nD τ).loc main_arg10) (ix1 j) := by
  have e : (V m c main_v14 : S1x64.Idx → F .f32)
      = shapeCast S1x64 (m ((c : Thread nD τ).loc main_arg10) : S64.Idx → F .f32) shapeCasts_S64_S1x64 := by
    dsimp only [Gen.V, Gen.V0]
    simp only [Gen.hostOps0, List.flatten_cons, List.flatten_nil, List.append_nil, List.cons_append, List.nil_append]
    after_results
    rfl
  exact (congrFun e _).trans (shapeCast_a_1a_apply _ _ 0 j)

/-- The last layer's bias row is the bias vector with a unit axis in front: at `(0, j)` it reads the vector at `j`. -/
theorem V_bias15 (c : Dev nD) (j : Fin 128) :
    V m c main_v15 (ix2 (0 : Fin 1) j) = m ((c : Thread nD τ).loc main_arg12) (ix1 j) := by
  have e : (V m c main_v15 : S1x128.Idx → F .f32)
      = shapeCast S1x128 (m ((c : Thread nD τ).loc main_arg12) : S128.Idx → F .f32) shapeCasts_S128_S1x128 := by
    dsimp only [Gen.V, Gen.V0]
    simp only [Gen.hostOps0, List.flatten_cons, List.flatten_nil, List.append_nil, List.cons_append, List.nil_append]
    after_results
    rfl
  exact (congrFun e _).trans (shapeCast_a_1a_apply _ _ 0 j)

/-- The id column is the id vector with a unit axis behind: at `(n, 0)` it reads the vector at `n`. -/
theorem V_gids (c : Dev nD) (n : Fin 100000) :
    V m c main_v16 (ix2 n (0 : Fin 1)) = m ((c : Thread nD τ).loc main_arg4) (ix1 n) := by
  have e : (V m c main_v16 : S100000x1.Idx → BitVec 32)
      = shapeCast S100000x1 (m ((c : Thread nD τ).loc main_arg4) : S100000.Idx → BitVec 32) shapeCasts_S100000_S100000x1 := by
    dsimp only [Gen.V, Gen.V0]
    simp only [Gen.hostOps0, List.flatten_cons, List.flatten_nil, List.append_nil, List.cons_append, List.nil_append]
    after_results
    rfl
  refine (congrFun e _).trans (shapeCast_apply (s := S100000) (t := S100000x1) _ _ (ix2 n (0 : Fin 1)) (ix1 n) ?_)
  rw [Shape.rowMajor_val_two, Shape.rowMajor_val_one]
  show n.val = n.val * 1 + 0
  omega

/-- THE AGGREGATED FEATURES at the exact values are the reference's: the zero table plus, in each row, the sum of the
    looked-up feature rows whose destination word names it. The kernel looks the rows up in the narrowed table and
    widens them after; at the exact values both format changes are the identity. -/
theorem V_agg (m : (ℓ : Loc nD τ sig) → Buf (Elt Ideal) ℓ) (c : Dev nD) :
    (V m c main_v11 : S100000x64.Idx → EReal)
      = Cert.ReferenceIdeal.Read.val_main_v9 (F := Ideal) (m ((c : Thread nD τ).loc main_arg0))
          (m ((c : Thread nD τ).loc main_arg2)) (m ((c : Thread nD τ).loc main_arg3)) := by
  dsimp only [Gen.V, Gen.V0]
  simp only [Gen.hostOps0, List.flatten_cons, List.flatten_nil, List.append_nil, List.cons_append, List.nil_append]
  after_results
  rfl

end Cert.KernelIdeal.Blocks

end
-- ==== Proof.Predict.lean ====
/-
  The prediction both programs end with: the graph features against the prediction weights, plus the bias, as a
  vector over the graphs. Both programs apply it to their graph-feature table, so the claim is that the two
  tables are equal; the prediction itself is never opened.
-/
import proofs.«405252_j57526791962625_2_alg».proof.Proof.Gen.ReferenceIdeal
import Idealize.ShloMosaic.PureOps.Ideal

noncomputable section

namespace Cert.Gcn

open Idealize.ShloMosaic Cert.ReferenceIdeal Cert.ReferenceIdeal.Gen

/-- `gf · Wp + bp`, one number per graph. -/
def predict (gf : FVec Ideal S256x128 .f32) (Wp : FVec Ideal S128x1 .f32) (bp : FVec Ideal S1 .f32) : FVec Ideal S256 .f32 :=
  shapeCast _ (addf (Host.dotGeneral dot_S256x128_S128x1_S256x1_1_0_0_1_n_n none gf Wp)
    (broadcastInDim S256x1 ![0, 1] bcast_S1x1_S256x1_0_1 (broadcastInDim S1x1 ![1] bcast_S1_S1x1_1 bp))) shapeCasts_S256x1_S256

end Cert.Gcn

end
-- ==== Proof.KernelTail.lean ====
/-
  The host operations after the kernel call, as one value.

  After the call the program sums the call's result, a table of two slabs of graph features, over the slabs
  (from the initial value 0), multiplies the sum by the prediction weights, adds the prediction bias and flattens
  the column to a vector over the graphs. What the result buffer holds after these operations is the prediction
  applied to the sum of the slabs, at the weights and bias as launched. The sum of the slabs read at graph g and
  feature f is 0 plus the two slabs' entries there.
-/
import proofs.«405252_j57526791962625_2_alg».proof.Proof.Gen.KernelIdeal.Frame
import proofs.«405252_j57526791962625_2_alg».proof.Proof.Predict
import Idealize.ShloMosaic.Lib.Pipeline.Value
import Idealize.ShloMosaic.Lib.StableHlo.Run
import Idealize.ShloMosaic.Lib.Tactic
import Idealize.ShloMosaic.PureOps.Ideal.Laws
import Idealize.ShloMosaic.Lib.ValueIdx

set_option maxRecDepth 16384

noncomputable section

namespace Cert.KernelIdeal.Tail

open Cert.KernelIdeal Cert.KernelIdeal.Gen Cert.Gcn Idealize.ShloMosaic Idealize.ShloMosaic.TcCoe Idealize.SL.Sem
  Idealize.ShloMosaic.ValueIdx

/-- The sum of the two slabs read at (g, f): the initial value 0 plus the slabs' entries at (g, f). -/
theorem reduce_apply (X : FVec Ideal S2x256x128 .f32) (g : Fin 256) (f : Fin 128) :
    Host.reduceAdd (F := Ideal) X (constant S_ .f32 0x00000000#32) reducesTo_S2x256x128_S256x128_d0 h_S_ (ix2 g f)
      = 0 + ∑ c' : Fin 2, X (ix3 c' g f) := by
  have h : S2x256x128.Reduces [0] S256x128 := by decide
  show Ideal.hostReduceAdd reducesTo_S2x256x128_S256x128_d0 X (Ideal.ofBits .f32 0x00000000#32) (ix2 g f) = _
  rw [Ideal.hostReduceAdd_single reducesTo_S2x256x128_S256x128_d0 h, Ideal.ofBits_zero_f32]
  refine congrArg (fun t => (0 : EReal) + t) (Finset.sum_congr rfl fun c' _ => congrArg X ?_)
  funext a
  refine Fin.ext ?_
  match a with
  | ⟨0, _⟩ => rfl
  | ⟨1, _⟩ => rfl
  | ⟨2, _⟩ => rfl

variable (m : (ℓ : Loc nD τ sig) → Buf (Elt Ideal) ℓ)

/-- What the result buffer holds after the host operations that follow the call: the prediction applied to the
    sum of the slabs of the call's result, at the prediction weights and bias as launched. -/
theorem tail_eq (c : Dev nD) :
    Pipeline.afterTail₀ cfgs (dats m) 0 (V0 m) [hostOps1] c main_v23
      = predict (Host.reduceAdd (F := Ideal) ((dats m 0 c).arrAt 11 cfg0.N) (constant S_ .f32 0x00000000#32)
            reducesTo_S2x256x128_S256x128_d0 h_S_)
          (m ((c : Thread nD τ).loc main_arg13)) (m ((c : Thread nD τ).loc main_arg14)) := by
  have h17 : Pipeline.withArrays (cfgs 0).spec c (V0 m c) (fun w => (dats m 0 c).arrAt w (cfgs 0).N)
      (Proc.devRef .tc main_v17) = (dats m 0 c).arrAt 11 cfg0.N :=
    Pipeline.withArrays_arr spec0 launch0.win.arr_inj c _ _ 11
  have h13 : Pipeline.withArrays (cfgs 0).spec c (V0 m c) (fun w => (dats m 0 c).arrAt w (cfgs 0).N)
      (Proc.devRef .tc main_arg13) = m ((c : Thread nD τ).loc main_arg13) :=
    (Pipeline.withArrays_of_ne _ c (V0 m c) _ main_arg13
      (by exact (by decide : ∀ w, Pipeline.arrRef spec0 w ≠ main_arg13))).trans (V_main_arg13 m c)
  have h14 : Pipeline.withArrays (cfgs 0).spec c (V0 m c) (fun w => (dats m 0 c).arrAt w (cfgs 0).N)
      (Proc.devRef .tc main_arg14) = m ((c : Thread nD τ).loc main_arg14) :=
    (Pipeline.withArrays_of_ne _ c (V0 m c) _ main_arg14
      (by exact (by decide : ∀ w, Pipeline.arrRef spec0 w ≠ main_arg14))).trans (V_main_arg14 m c)
  unfold Pipeline.afterTail₀
  show StableHlo.after hostOps1 _ (Proc.devRef .tc main_v23) = _
  after_results
  rw [h17, h13, h14]
  rfl

end Cert.KernelIdeal.Tail

end
-- ==== Proof.LibIndexed.lean ====
/-
  Row lookups and accumulating scatters read at an index, and the counting identity that joins them.

  A row lookup `x[idx]` of a table `x : [N, K]` at start words `idx : [R, 1]` reads, at `(e, k)`, column `k` of
  the row the word `idx[e, 0]` names: read signed and clamped into `[0, N − 1]`. An accumulating scatter into a
  vector `[N]`, or into the rows of a table `[N, K]`, at start words `idx : [E, 1]`, lands update `e` at the
  position its word names, read signed and NOT clamped: a word outside `[0, N)` lands nowhere. At the exact
  values such a scatter is the operand plus the sum of the updates that land on the element. Last, a sum of
  counts times values is the sum of the values over the counted things: on the extended reals too, since a
  count is a sum of ones and `(a + b) · x = a · x + b · x` holds for non-negative `a`, `b`.
-/
import Idealize.ShloMosaic.Lib.ValueIdx
import Idealize.ShloMosaic.Lib.ValueIdxRank1
import Idealize.ShloMosaic.PureOps.Ideal
import Idealize.ShloMosaic.PureOps.Ideal.Laws

noncomputable section

namespace Cert.Rgcn.Lib

open Idealize.ShloMosaic Idealize.ShloMosaic.ValueIdx

/-- THE ROW LOOKUP READ AT `(e, k)`. -/
theorem gather_rows_apply {α : Type} {N K R w : Nat} (hN : 0 < N)
    (d : GatherDims ⟨2, ![N, K]⟩ ⟨2, ![R, 1]⟩ ⟨2, ![R, K]⟩)
    (wf : GatherDims.WF ⟨2, ![N, K]⟩ ⟨2, ![R, 1]⟩ ⟨2, ![R, K]⟩ [1] [0] [] [0] [] 1 ![1, K])
    (hd : d = { offsetDims := [1], collapsedSliceDims := [0], operandBatchingDims := [], startIndicesBatchingDims := [], startIndexMap := [0], indexVectorDim := 1, sliceSizes := ![1, K], wf := wf })
    (x : (⟨2, ![N, K]⟩ : Shape).Idx → α) (idx : IVec ⟨2, ![R, 1]⟩ w) (e : Fin R) (k : Fin K) :
    Host.gather d x idx (ix2 e k) = x (ix2 ⟨min (idx (ix2 e (0 : Fin 1))).toInt.toNat (N - 1), by omega⟩ k) := by
  subst hd
  unfold Host.gather
  congr 1
  funext a
  refine Fin.ext ?_
  match a with
  | ⟨0, h0⟩ =>
    -- the row axis: collapsed and named by the start index map, so the coordinate is the clamped start alone
    show GatherDims.start _ (ix2 e k) idx ⟨0, h0⟩ + GatherDims.batchCoord _ (ix2 e k) ⟨0, h0⟩ + GatherDims.offCoord _ (ix2 e k) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    have hmem : (⟨0, h0⟩ : Fin 2) ∈ ([0] : List (Fin 2)) := List.mem_singleton.mpr rfl
    unfold GatherDims.start
    rw [dif_pos hmem]
    -- the start's word is read at `(e, 0)`
    have hsi : GatherDims.siIdx ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) (ix2 e k)
        ⟨List.idxOf (⟨0, h0⟩ : Fin 2) ([0] : List (Fin 2)), List.idxOf_lt_length_iff.2 hmem⟩ = ix2 e (0 : Fin 1) := by
      funext b; refine Fin.ext ?_
      match b with
      | ⟨0, _⟩ => rfl
      | ⟨1, _⟩ => rfl
    rw [hsi]
    rfl
  | ⟨1, h1⟩ =>
    -- the column axis: not named by the start index map (start 0), kept as the one offset axis (offset `k`)
    show GatherDims.start _ (ix2 e k) idx ⟨1, h1⟩ + GatherDims.batchCoord _ (ix2 e k) ⟨1, h1⟩ + GatherDims.offCoord _ (ix2 e k) ⟨1, h1⟩ = _
    have hne : (⟨1, h1⟩ : Fin 2) ∉ ([0] : List (Fin 2)) := fun h =>
      absurd (Fin.ext_iff.mp (List.mem_singleton.mp h)) Nat.one_ne_zero
    have hkept : (⟨1, h1⟩ : Fin 2) ∈ GatherDims.sKept ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) :=
      (GatherDims.mem_sKept _ _).mpr ⟨hne, List.not_mem_nil⟩
    rw [GatherDims.batchCoord_eq_zero _ _ _ List.not_mem_nil]
    unfold GatherDims.start
    rw [dif_neg hne]
    unfold GatherDims.offCoord
    rw [dif_pos hkept]
    simp only [Nat.add_zero, Nat.zero_add]
    rfl

/-- Where update `e` of a scatter into a vector lands: at the position its start word names. -/
theorem scatter_vec_resultIdx {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (idx : IVec ⟨2, ![E, 1]⟩ w) (e : Fin E) (n : Fin N) :
    d.resultIdx? (ix1 e) idx = some (ix1 n) ↔ (idx (ix2 e (0 : Fin 1))).toInt = (n.val : ℤ) := by
  -- the start on the one operand axis is the start word read signed
  have hstart : ∀ a, d.start (ix1 e) idx a = (idx (ix2 e (0 : Fin 1))).toInt := by
    intro a
    obtain rfl : a = 0 := Subsingleton.elim _ _
    subst hd
    unfold ScatterDims.start
    rw [dif_pos (List.mem_singleton.mpr rfl)]
    congr 2
    funext b; refine Fin.ext ?_
    match b with
    | ⟨0, _⟩ => rfl
    | ⟨1, _⟩ => rfl
  -- the one operand axis is an inserted axis: its window coordinate is 0
  have hwin : ∀ a, d.window (ix1 e) a = 0 := by
    intro a
    obtain rfl : a = 0 := Subsingleton.elim _ _
    subst hd
    unfold ScatterDims.window
    rw [dif_neg]
    simp [ScatterDims.sKept, Shape.kept]
  have hsz : ∀ a, (⟨1, ![N]⟩ : Shape).size a = N := by
    intro a
    obtain rfl : a = 0 := Subsingleton.elim _ _
    rfl
  have hn := n.isLt
  unfold ScatterDims.resultIdx?
  split
  · rename_i h
    rw [Option.some.injEq]
    constructor
    · intro heq
      have h0 : (d.start (ix1 e) idx 0 + (d.window (ix1 e) 0 : ℤ)).toNat = n.val :=
        congrArg Fin.val (congrFun heq 0)
      have h1 := h 0
      rw [hstart, hwin] at h0 h1
      omega
    · intro heq
      funext a
      obtain rfl : a = 0 := Subsingleton.elim _ _
      refine Fin.ext ?_
      show (d.start (ix1 e) idx 0 + (d.window (ix1 e) 0 : ℤ)).toNat = n.val
      rw [hstart, hwin, heq]
      simp
  · rename_i h
    constructor
    · intro h'; cases h'
    · intro heq
      exfalso; apply h
      intro a
      rw [hstart, hwin, hsz, heq]
      omega

/-- Where update `(e, k')` of a scatter into the rows of a table lands: in the row its start word names, at column `k'`. -/
theorem scatter_rows_resultIdx {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (idx : IVec ⟨2, ![E, 1]⟩ w) (e : Fin E) (k' : Fin K) (n : Fin N) (k : Fin K) :
    d.resultIdx? (ix2 e k') idx = some (ix2 n k) ↔ (idx (ix2 e (0 : Fin 1))).toInt = (n.val : ℤ) ∧ k' = k := by
  -- on the row axis the start is the start word read signed, on the column axis it is 0
  have hstart0 : d.start (ix2 e k') idx 0 = (idx (ix2 e (0 : Fin 1))).toInt := by
    subst hd
    unfold ScatterDims.start
    rw [dif_pos (List.mem_singleton.mpr rfl)]
    congr 2
    funext b; refine Fin.ext ?_
    match b with
    | ⟨0, _⟩ => rfl
    | ⟨1, _⟩ => rfl
  have hstart1 : d.start (ix2 e k') idx 1 = 0 := by
    subst hd
    unfold ScatterDims.start
    rw [dif_neg]
    simp
  -- the row axis is an inserted axis (window coordinate 0); the column axis is the one window axis
  have hwin0 : d.window (ix2 e k') 0 = 0 := by
    subst hd
    unfold ScatterDims.window
    rw [dif_neg]
    simp [ScatterDims.sKept, Shape.kept]
  have hwin1 : d.window (ix2 e k') 1 = k'.val := by
    subst hd
    unfold ScatterDims.window
    rw [dif_pos (by simp [ScatterDims.sKept, Shape.kept])]
    rfl
  have hn := n.isLt
  have hk := k.isLt
  have hk' := k'.isLt
  unfold ScatterDims.resultIdx?
  split
  · rename_i h
    rw [Option.some.injEq]
    constructor
    · intro heq
      have h0 : (d.start (ix2 e k') idx 0 + (d.window (ix2 e k') 0 : ℤ)).toNat = n.val :=
        congrArg Fin.val (congrFun heq 0)
      have h1 : (d.start (ix2 e k') idx 1 + (d.window (ix2 e k') 1 : ℤ)).toNat = k.val :=
        congrArg Fin.val (congrFun heq 1)
      have g0 := h 0
      rw [hstart0, hwin0] at h0 g0
      rw [hstart1, hwin1] at h1
      refine ⟨by omega, Fin.ext (by omega)⟩
    · rintro ⟨heq, rfl⟩
      funext a
      refine Fin.ext ?_
      match a with
      | ⟨0, _⟩ =>
        show (d.start (ix2 e k') idx 0 + (d.window (ix2 e k') 0 : ℤ)).toNat = n.val
        rw [hstart0, hwin0, heq]
        simp
      | ⟨1, _⟩ =>
        show (d.start (ix2 e k') idx 1 + (d.window (ix2 e k') 1 : ℤ)).toNat = k'.val
        rw [hstart1, hwin1]
        simp
  · rename_i h
    constructor
    · intro h'; cases h'
    · rintro ⟨heq, rfl⟩
      exfalso; apply h
      intro a
      match a with
      | ⟨0, _⟩ =>
        show 0 ≤ d.start (ix2 e k') idx 0 + (d.window (ix2 e k') 0 : ℤ) ∧ d.start (ix2 e k') idx 0 + (d.window (ix2 e k') 0 : ℤ) < (N : ℤ)
        rw [hstart0, hwin0, heq]
        omega
      | ⟨1, _⟩ =>
        show 0 ≤ d.start (ix2 e k') idx 1 + (d.window (ix2 e k') 1 : ℤ) ∧ d.start (ix2 e k') idx 1 + (d.window (ix2 e k') 1 : ℤ) < (K : ℤ)
        rw [hstart1, hwin1]
        omega

/-- THE ACCUMULATING SCATTER INTO A VECTOR, at the exact values, read at `n`. -/
theorem scatterAdd_vec_apply {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (x : FVec Ideal ⟨1, ![N]⟩ .f32) (idx : IVec ⟨2, ![E, 1]⟩ w) (upd : FVec Ideal ⟨1, ![E]⟩ .f32) (n : Fin N) :
    Host.scatterAdd (F := Ideal) d x idx upd (ix1 n)
      = x (ix1 n) + ∑ e ∈ Finset.univ.filter (fun e : Fin E => (idx (ix2 e (0 : Fin 1))).toInt = (n.val : ℤ)), upd (ix1 e) := by
  unfold Host.scatterAdd
  rw [Ideal.hostScatterAdd_def]
  unfold Ideal.hostScatterAdd
  congr 1
  -- both sums as sums of indicator terms, the left one re-indexed by the update's one coordinate
  rw [Finset.sum_filter, Finset.sum_filter, ← Equiv.sum_comp (idxEquiv1 (n := E)).symm]
  refine Finset.sum_congr rfl (fun e _ => ?_)
  show (if d.resultIdx? (ix1 e) idx = some (ix1 n) then upd (ix1 e) else 0) = _
  simp only [scatter_vec_resultIdx d wf hd idx e n]

/-- THE ACCUMULATING SCATTER INTO THE ROWS OF A TABLE, at the exact values, read at `(n, k)`. -/
theorem scatterAdd_rows_apply {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (x : FVec Ideal ⟨2, ![N, K]⟩ .f32) (idx : IVec ⟨2, ![E, 1]⟩ w) (upd : FVec Ideal ⟨2, ![E, K]⟩ .f32) (n : Fin N) (k : Fin K) :
    Host.scatterAdd (F := Ideal) d x idx upd (ix2 n k)
      = x (ix2 n k) + ∑ e ∈ Finset.univ.filter (fun e : Fin E => (idx (ix2 e (0 : Fin 1))).toInt = (n.val : ℤ)), upd (ix2 e k) := by
  unfold Host.scatterAdd
  rw [Ideal.hostScatterAdd_def]
  unfold Ideal.hostScatterAdd
  congr 1
  -- both sums as sums of indicator terms, the left one as a double sum over the update's two coordinates
  rw [Finset.sum_filter, Finset.sum_filter, sum_idx2]
  refine Finset.sum_congr rfl (fun e _ => ?_)
  simp only [scatter_rows_resultIdx d wf hd idx e _ n k]
  -- the inner sum over the columns keeps the term at column k alone
  by_cases h : (idx (ix2 e (0 : Fin 1))).toInt = (n.val : ℤ)
  · simp only [h, true_and, if_true]
    rw [Finset.sum_ite_eq' Finset.univ k (fun b => upd (ix2 e b))]
    simp
  · simp only [h, false_and, if_false, Finset.sum_const_zero]

/-- COUNTS TIMES VALUES: the sum over `s` of (the number of `e` with `P e` and `src e = s`) times `f s` is the
    sum of `f (src e)` over the `e` with `P e`; on the extended reals, with no finiteness. -/
theorem sum_count_mul {ι σ : Type} [Fintype ι] [Fintype σ] [DecidableEq σ] (P : ι → Prop) [DecidablePred P]
    (src : ι → σ) (f : σ → EReal) :
    (∑ s : σ, (∑ _e ∈ Finset.univ.filter (fun e : ι => P e ∧ src e = s), (1 : EReal)) * f s)
      = ∑ e ∈ Finset.univ.filter P, f (src e) := by
  classical
  -- a count (a sum of ones) times `x` is the sum of `x` over the counted set: the count is non-negative
  have hcount : ∀ (A : Finset ι) (x : EReal), (∑ _e ∈ A, (1 : EReal)) * x = ∑ _e ∈ A, x := by
    intro A x
    induction A using Finset.induction_on with
    | empty => simp
    | insert a s ha ih =>
      rw [Finset.sum_insert ha, Finset.sum_insert ha,
        EReal.right_distrib_of_nonneg zero_le_one (Finset.sum_nonneg (fun _ _ => zero_le_one)), one_mul, ih]
  -- each summand as a sum over all `e` of an indicator, then exchange the two sums
  have h1 : ∀ s : σ, (∑ _e ∈ Finset.univ.filter (fun e : ι => P e ∧ src e = s), (1 : EReal)) * f s
      = ∑ e : ι, if P e ∧ src e = s then f s else 0 := by
    intro s
    rw [hcount, Finset.sum_filter]
  rw [Finset.sum_congr rfl (fun s _ => h1 s), Finset.sum_comm, Finset.sum_filter]
  refine Finset.sum_congr rfl (fun e _ => ?_)
  by_cases hP : P e
  · simp [hP]
  · simp [hP]

end Cert.Rgcn.Lib

end
-- ==== Proof.RefValue.lean ====
import proofs.«405252_j57526791962625_2_alg».proof.Proof.Gen.ReferenceIdeal.Read
import proofs.«405252_j57526791962625_2_alg».proof.Proof.Spec
import proofs.«405252_j57526791962625_2_alg».proof.Proof.LibIndexed

/-
  The reference program's node rows and graph features, read at an index.

  Row `n` of the reference's last dense layer is the specification's output row of node `n`, computed from row
  `n` of the aggregated features and row `n` of the node features. The graph feature table is the zero table plus,
  in row `g`, the sum of the output rows of the nodes whose id word, read signed, is `g`.
-/

noncomputable section

namespace Cert.ReferenceIdeal.RefValue

open Cert.ReferenceIdeal Cert.ReferenceIdeal.Read Cert.Gcn Cert.Rgcn.Lib Idealize.ShloMosaic Idealize.ShloMosaic.ValueIdx

/-! ## The composed index functions at explicit coordinates -/

/-- The left index of a product into a 64-column table at `(n, j)`, contraction coordinate `k`, is `(n, k)`. -/
theorem lidx64 (n : Fin 100000) (j k : Fin 64) : lidx_main_v10 (ix2 n j) k = ix2 n k :=
  funext fun a => Fin.ext (by match a with | ⟨0, _⟩ => rfl | ⟨1, _⟩ => rfl)

/-- The right index of a product into a 64-column table at `(n, j)`, contraction coordinate `k`, is `(k, j)`. -/
theorem ridx64 (n : Fin 100000) (j k : Fin 64) : ridx_main_v10 (ix2 n j) k = ix2 k j :=
  funext fun a => Fin.ext (by match a with | ⟨0, _⟩ => rfl | ⟨1, _⟩ => rfl)

/-- The left index of the second branch's product at `(n, j)`, contraction coordinate `k`, is `(n, k)`. -/
theorem lidx64_r (n : Fin 100000) (j k : Fin 64) : lidx_main_v15 (ix2 n j) k = ix2 n k :=
  funext fun a => Fin.ext (by match a with | ⟨0, _⟩ => rfl | ⟨1, _⟩ => rfl)
/-- Its right index is `(k, j)`. -/
theorem ridx64_r (n : Fin 100000) (j k : Fin 64) : ridx_main_v15 (ix2 n j) k = ix2 k j :=
  funext fun a => Fin.ext (by match a with | ⟨0, _⟩ => rfl | ⟨1, _⟩ => rfl)

/-- The left index of the hidden layer's product at `(n, j)`, contraction coordinate `k`, is `(n, k)`. -/
theorem lidx64_i (n : Fin 100000) (j k : Fin 64) : lidx_main_v21 (ix2 n j) k = ix2 n k :=
  funext fun a => Fin.ext (by match a with | ⟨0, _⟩ => rfl | ⟨1, _⟩ => rfl)
/-- Its right index is `(k, j)`. -/
theorem ridx64_i (n : Fin 100000) (j k : Fin 64) : ridx_main_v21 (ix2 n j) k = ix2 k j :=
  funext fun a => Fin.ext (by match a with | ⟨0, _⟩ => rfl | ⟨1, _⟩ => rfl)

/-- The left index of the product into the 128-column table at `(n, f)`, contraction coordinate `k`, is `(n, k)`. -/
theorem lidx128 (n : Fin 100000) (f : Fin 128) (k : Fin 64) : lidx_main_v26 (ix2 n f) k = ix2 n k :=
  funext fun a => Fin.ext (by match a with | ⟨0, _⟩ => rfl | ⟨1, _⟩ => rfl)

/-- The right index of the product into the 128-column table at `(n, f)`, contraction coordinate `k`, is `(k, f)`. -/
theorem ridx128 (n : Fin 100000) (f : Fin 128) (k : Fin 64) : ridx_main_v26 (ix2 n f) k = ix2 k f :=
  funext fun a => Fin.ext (by match a with | ⟨0, _⟩ => rfl | ⟨1, _⟩ => rfl)

/-- A 64-vector broadcast along the rows reads, at `(n, j)`, its entry `j`. -/
theorem bidx64 (n : Fin 100000) (j : Fin 64) : idx_main_v11 (idx_main_v12 (ix2 n j)) = ix1 j :=
  funext fun a => Fin.ext (by match a with | ⟨0, _⟩ => rfl)

/-- A 128-vector broadcast along the rows reads, at `(n, f)`, its entry `f`. -/
theorem bidx128 (n : Fin 100000) (f : Fin 128) : idx_main_v27 (idx_main_v28 (ix2 n f)) = ix1 f :=
  funext fun a => Fin.ext (by match a with | ⟨0, _⟩ => rfl)

/-! ## The broadcast biases and the clamps' zero tables -/

/-- The first branch's bias table at `(n, j)` is `b j`. -/
theorem bias_g (x6 : (⟨S64, .f32⟩ : BufTy).Contents (Elt Ideal)) (n : Fin 100000) (j : Fin 64) :
    val_main_v12 (F := Ideal) x6 (ix2 n j) = x6 (ix1 j) := by
  rw [val_main_v12_apply, val_main_v11_apply]
  exact congrArg x6 (bidx64 n j)

/-- The second branch's bias table at `(n, j)` is `b j`. -/
theorem bias_r (x8 : (⟨S64, .f32⟩ : BufTy).Contents (Elt Ideal)) (n : Fin 100000) (j : Fin 64) :
    val_main_v17 (F := Ideal) x8 (ix2 n j) = x8 (ix1 j) := by
  rw [val_main_v17_apply, val_main_v16_apply]
  exact congrArg x8 (bidx64 n j)

/-- The hidden layer's bias table at `(n, k)` is `b k`. -/
theorem bias_i (x10 : (⟨S64, .f32⟩ : BufTy).Contents (Elt Ideal)) (n : Fin 100000) (k : Fin 64) :
    val_main_v23 (F := Ideal) x10 (ix2 n k) = x10 (ix1 k) := by
  rw [val_main_v23_apply, val_main_v22_apply]
  exact congrArg x10 (bidx64 n k)

/-- The last layer's bias table at `(n, f)` is `b f`. -/
theorem bias_o (x12 : (⟨S128, .f32⟩ : BufTy).Contents (Elt Ideal)) (n : Fin 100000) (f : Fin 128) :
    val_main_v28 (F := Ideal) x12 (ix2 n f) = x12 (ix1 f) := by
  rw [val_main_v28_apply, val_main_v27_apply]
  exact congrArg x12 (bidx128 n f)

/-- The first clamp's table is zero everywhere. -/
theorem zero_g (i : S100000x64.Idx) : val_main_call0_v0 (F := Ideal) i = 0 := by
  rw [val_main_call0_v0_apply, val_main_call0_cst_apply]
  exact Ideal.ofBits_zero_f32

/-- The second clamp's table is zero everywhere. -/
theorem zero_r (i : S100000x64.Idx) : val_main_call1_v0 (F := Ideal) i = 0 := by
  rw [val_main_call1_v0_apply, val_main_call1_cst_apply]
  exact Ideal.ofBits_zero_f32

/-- The third clamp's table is zero everywhere. -/
theorem zero_i (i : S100000x64.Idx) : val_main_call2_v0 (F := Ideal) i = 0 := by
  rw [val_main_call2_v0_apply, val_main_call2_cst_apply]
  exact Ideal.ofBits_zero_f32

/-- The readout's initial table is zero everywhere. -/
theorem zero_o (i : S256x128.Idx) : val_main_v30 (F := Ideal) i = 0 := by
  rw [val_main_v30_apply, val_main_cst_1_apply]
  exact Ideal.ofBits_zero_f32

/-! ## The layers at `(n, ·)` -/

/-- The aggregated branch at `(n, j)`: row `n` of the aggregate against column `j` of the weights, plus the bias, clamped. -/
theorem branch_g_apply (x0 : (⟨S100000x64, .f32⟩ : BufTy).Contents (Elt Ideal)) (x2 x3 : (⟨S1200000, .i32⟩ : BufTy).Contents (Elt Ideal)) (x5 : (⟨S64x64, .f32⟩ : BufTy).Contents (Elt Ideal)) (x6 : (⟨S64, .f32⟩ : BufTy).Contents (Elt Ideal)) (n : Fin 100000) (j : Fin 64) :
    val_main_v14 (F := Ideal) x0 x2 x3 x5 x6 (ix2 n j) = branch (val_main_v9 (F := Ideal) x0 x2 x3) x5 x6 n j := by
  unfold branch
  rw [val_main_v14_apply, val_main_v13_apply, val_main_v10_apply, bias_g, zero_g, Ideal.maximumf_def, Ideal.addf_def]
  simp only [lidx64, ridx64]

/-- The node's own branch at `(n, j)`: row `n` of the features against column `j` of the weights, plus the bias, clamped. -/
theorem branch_r_apply (x0 : (⟨S100000x64, .f32⟩ : BufTy).Contents (Elt Ideal)) (x7 : (⟨S64x64, .f32⟩ : BufTy).Contents (Elt Ideal)) (x8 : (⟨S64, .f32⟩ : BufTy).Contents (Elt Ideal)) (n : Fin 100000) (j : Fin 64) :
    val_main_v19 (F := Ideal) x0 x7 x8 (ix2 n j) = branch x0 x7 x8 n j := by
  unfold branch
  rw [val_main_v19_apply, val_main_v18_apply, val_main_v15_apply, bias_r, zero_r, Ideal.maximumf_def, Ideal.addf_def]
  simp only [lidx64_r, ridx64_r]

/-- The hidden layer's product at `(n, k)`: the two branches added, against column `k` of the weights. -/
theorem hidden_apply (x0 : (⟨S100000x64, .f32⟩ : BufTy).Contents (Elt Ideal)) (x2 x3 : (⟨S1200000, .i32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (n : Fin 100000) (k : Fin 64) :
    val_main_v21 (F := Ideal) x0 x2 x3 x5 x6 x7 x8 x9 (ix2 n k)
      = Gcn.hidden (val_main_v9 (F := Ideal) x0 x2 x3) x0 x5 x7 x9 x6 x8 n k := by
  unfold Gcn.hidden
  rw [val_main_v21_apply]
  refine Finset.sum_congr rfl fun j _ => ?_
  rw [lidx64_i, ridx64_i, val_main_v20_apply, branch_g_apply, branch_r_apply, Ideal.addf_def]

/-- ROW `n` OF THE REFERENCE'S LAST DENSE LAYER is the specification's output row of node `n`: the hidden layer with its
    bias, clamped, against the last weights, plus the last bias. -/
theorem nodeRows_apply (x0 : (⟨S100000x64, .f32⟩ : BufTy).Contents (Elt Ideal)) (x2 x3 : (⟨S1200000, .i32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x128, .f32⟩ : BufTy).Contents (Elt Ideal)) (x12 : (⟨S128, .f32⟩ : BufTy).Contents (Elt Ideal)) (n : Fin 100000) (f : Fin 128) :
    val_main_v29 (F := Ideal) x0 x2 x3 x5 x6 x7 x8 x9 x10 x11 x12 (ix2 n f)
      = nodeOut (val_main_v9 (F := Ideal) x0 x2 x3) x0 x5 x7 x9 x11 x6 x8 x10 x12 n f := by
  unfold nodeOut
  rw [val_main_v29_apply, val_main_v26_apply, bias_o, Ideal.addf_def]
  refine congrArg (fun s => s + x12 (ix1 f)) ?_
  refine Finset.sum_congr rfl fun k _ => ?_
  rw [lidx128, ridx128, val_main_v25_apply, val_main_v24_apply, hidden_apply, bias_i, zero_i, Ideal.maximumf_def,
    Ideal.addf_def]

/-- THE REFERENCE'S GRAPH FEATURE at `(g, f)`: zero plus the sum, over the nodes whose id word read signed is `g`, of
    the node's output row at `f`. -/
theorem graphFeat_apply (x0 : (⟨S100000x64, .f32⟩ : BufTy).Contents (Elt Ideal)) (x2 x3 : (⟨S1200000, .i32⟩ : BufTy).Contents (Elt Ideal)) (x4 : (⟨S100000, .i32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x128, .f32⟩ : BufTy).Contents (Elt Ideal)) (x12 : (⟨S128, .f32⟩ : BufTy).Contents (Elt Ideal)) (g : Fin 256) (f : Fin 128) :
    val_main_v32 (F := Ideal) x0 x2 x3 x4 x5 x6 x7 x8 x9 x10 x11 x12 (ix2 g f)
      = 0 + ∑ e ∈ Finset.univ.filter (fun e : Fin 100000 => (x4 (ix1 e)).toInt = (g.val : ℤ)),
          nodeOut (val_main_v9 (F := Ideal) x0 x2 x3) x0 x5 x7 x9 x11 x6 x8 x10 x12 e f := by
  unfold val_main_v32
  refine (scatterAdd_rows_apply scatter_S256x128_S100000x1_S100000x128_1_0_0_1
    Facts₀.scatter_S256x128_S100000x1_S100000x128_1_0_0_1_wf rfl _ _ _ g f).trans ?_
  rw [zero_o]
  have hw : ∀ e : Fin 100000, val_main_v31 (F := Ideal) x4 (ix2 e (0 : Fin 1)) = x4 (ix1 e) := fun e => by
    rw [val_main_v31_apply]
    exact congrArg x4 (funext fun a => Fin.ext (by match a with | ⟨0, _⟩ => rfl))
  simp only [hw]
  refine congrArg (fun s => (0 : EReal) + s) ?_
  exact Finset.sum_congr rfl fun e _ => nodeRows_apply x0 x2 x3 x5 x6 x7 x8 x9 x10 x11 x12 e f

end Cert.ReferenceIdeal.RefValue

end
-- ==== Proof.KernelValue.lean ====
/-
  The kernel program's result, read back at the exact values.

  The carried accumulator after the last point of a core's sweep is zero plus the ten blocks' contributions; a
  block's contribution at graph `g` and feature `f` is, over the block's rows, the indicator that the row's id word
  is the word of `g` times the row's output at `f`. A block's rows are nodes of the whole arrays, so the two sweeps
  together sum over all 100000 nodes, each once: the host's sum of the two halves of the call's result is the
  reference's graph-feature table (an accumulating scatter of the nodes' output rows at their id words, which drops
  the ids outside `[0, 256)` as the indicator does). Both programs end with the same prediction of that table.
-/
import proofs.«405252_j57526791962625_2_alg».proof.Proof.KernelFinal
import proofs.«405252_j57526791962625_2_alg».proof.Proof.KernelPayload
import proofs.«405252_j57526791962625_2_alg».proof.Proof.Spec
import proofs.«405252_j57526791962625_2_alg».proof.Proof.KernelBlocks
import proofs.«405252_j57526791962625_2_alg».proof.Proof.KernelTail
import proofs.«405252_j57526791962625_2_alg».proof.Proof.RefValue
import Idealize.ShloMosaic.Lib.Pipeline.Value
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Fold

open Cert.KernelIdeal Cert.KernelIdeal.Gen Cert.KernelIdeal.Acc Cert.KernelIdeal.Payload Cert.KernelIdeal.Blocks Cert.KernelIdeal.Tail Cert.Gcn

variable (m : (ℓ : Loc nD τ sig) → Buf (Elt Ideal) ℓ)

/-- A block's contribution to the graph features at `(g, f)`: over its rows, the one-hot entry of the row's id word
    and `g` times the row's output at `f`. -/
def blockSum (x0 x1 : Vec Ideal S5000x64 .f32) (x2 : Vec Ideal S5000x1 .i32) (x3 : Vec Ideal S64x64 .f32) (x4 : Vec Ideal S1x64 .f32)
    (x5 : Vec Ideal S64x64 .f32) (x6 : Vec Ideal S1x64 .f32) (x7 : Vec Ideal S64x64 .f32) (x8 : Vec Ideal S1x64 .f32)
    (x9 : Vec Ideal S64x128 .f32) (x10 : Vec Ideal S1x128 .f32) (i : S256x128.Idx) : EReal :=
  ∑ r : Fin 5000, (if BitVec.ofNat 32 (i 0).val = x2 (ix2 r (0 : Fin 1)) then (1 : EReal) else 0)
    * nodeOut x0 x1 x3 x5 x7 x9 (fun a => x4 (ix2 (0 : Fin 1) (a 0))) (fun a => x6 (ix2 (0 : Fin 1) (a 0)))
        (fun a => x8 (ix2 (0 : Fin 1) (a 0))) (fun a => x10 (ix2 (0 : Fin 1) (a 0))) r (i 1)

/-- The update adds the block's contribution to the accumulator, entry by entry. -/
theorem upd_apply (x0 x1 : Vec Ideal S5000x64 .f32) (x2 : Vec Ideal S5000x1 .i32) (x3 : Vec Ideal S64x64 .f32) (x4 : Vec Ideal S1x64 .f32)
    (x5 : Vec Ideal S64x64 .f32) (x6 : Vec Ideal S1x64 .f32) (x7 : Vec Ideal S64x64 .f32) (x8 : Vec Ideal S1x64 .f32)
    (x9 : Vec Ideal S64x128 .f32) (x10 : Vec Ideal S1x128 .f32) (acc : Vec Ideal S256x128 .f32) (i : S256x128.Idx) :
    upd x0 x1 x2 x3 x4 x5 x6 x7 x8 x9 x10 acc i = acc i + blockSum x0 x1 x2 x3 x4 x5 x6 x7 x8 x9 x10 i := by
  obtain ⟨g, f, rfl⟩ : ∃ (g : Fin 256) (f : Fin 128), i = ix2 g f := ⟨i 0, i 1, eq_ix2 i⟩
  exact pay1_apply x0 x1 x2 x3 x5 x7 x4 x6 x8 x9 x10 acc g f

/-- The zero block is zero everywhere. -/
theorem zero_block (i : S256x128.Idx) : (k0_pay3 (F := Ideal)) i = 0 := by
  unfold k0_pay3
  rw [shapeCast_self]
  exact scalar_zero

/-- Point `n`'s contribution (zero past the grid, which is never used). -/
def contrib (c : Dev nD) (n : ℕ) (i : S256x128.Idx) : EReal :=
  if h : n < cfg0.N then
    blockSum (iblk m c 0 ⟨n, h⟩) (iblk m c 1 ⟨n, h⟩) (iblk m c 2 ⟨n, h⟩) (iblk m c 3 ⟨n, h⟩) (iblk m c 4 ⟨n, h⟩) (iblk m c 5 ⟨n, h⟩)
      (iblk m c 6 ⟨n, h⟩) (iblk m c 7 ⟨n, h⟩) (iblk m c 8 ⟨n, h⟩) (iblk m c 9 ⟨n, h⟩) (iblk m c 10 ⟨n, h⟩) i
  else 0

/-- The accumulator after the last point of sweep `q` is the sum of the sweep's ten contributions. -/
theorem acc_last (c : Dev nD) (q : ℕ) (h : 10 * q + 9 < cfg0.N) (i : S256x128.Idx) :
    (outsAt0 m c (10 * q + 9) h).2 i = 0 + ∑ s ∈ Finset.range 10, contrib m c (10 * q + s) i := by
  have hfold := acc_sweep m c q 9 (Nat.lt_succ_self 9) h
  rw [hfold]
  refine Pipeline.accAt_add_apply _ _ (fun _ => (0 : EReal)) (contrib m c) (10 * q) 9 ?_ ?_ 9 (le_refl 9) h i
  · intro hb j
    show upd (F := Ideal) _ _ _ _ _ _ _ _ _ _ _ (k0_pay3 (F := Ideal)) j = 0 + contrib m c (10 * q) j
    rw [upd_apply, zero_block]
    unfold contrib
    rw [dif_pos hb]
  · intro n hn acc j _ _
    show upd (F := Ideal) _ _ _ _ _ _ _ _ _ _ _ acc j = acc j + contrib m c n j
    rw [upd_apply]
    unfold contrib
    rw [dif_pos hn]

/-- THE RESULT ARRAY at `(c', g, f)`: the sum of the ten contributions of half `c'`'s sweep. -/
theorem result_apply (c : Dev nD) (c' : Fin 2) (g : Fin 256) (f : Fin 128) :
    result m c (ix3 c' g f) = 0 + ∑ s ∈ Finset.range 10, contrib m c (10 * c'.val + s) (ix2 g f) := by
  have hN : cfg0.N = 20 := N_0
  have ht : 10 * c'.val + 9 < cfg0.N := by omega
  show accOf m c (10 * c'.val + 9) (ix2 g f) = _
  rw [accOf_eq m c ⟨10 * c'.val + 9, ht⟩]
  exact acc_last m c c'.val ht (ix2 g f)

/-! ## The contributions over the whole arrays -/

/-- A row of a block is a node of the whole arrays: row `r` of point `t`'s blocks is node `5000 t + r`, the weight
    blocks are the whole weight tables and the bias rows the bias vectors. -/
theorem nodeOut_block (c : Dev nD) (t : Fin cfg0.N) (r : Fin 5000) (f : Fin 128) :
    nodeOut (iblk m c 0 t) (iblk m c 1 t) (iblk m c 3 t) (iblk m c 5 t) (iblk m c 7 t) (iblk m c 9 t)
        (fun a => iblk m c 4 t (ix2 (0 : Fin 1) (a 0))) (fun a => iblk m c 6 t (ix2 (0 : Fin 1) (a 0)))
        (fun a => iblk m c 8 t (ix2 (0 : Fin 1) (a 0))) (fun a => iblk m c 10 t (ix2 (0 : Fin 1) (a 0))) r f
      = nodeOut (V m c main_v11) (m ((c : Thread nD τ).loc main_arg0)) (m ((c : Thread nD τ).loc main_arg5)) (m ((c : Thread nD τ).loc main_arg7)) (m ((c : Thread nD τ).loc main_arg9)) (m ((c : Thread nD τ).loc main_arg11)) (m ((c : Thread nD τ).loc main_arg6)) (m ((c : Thread nD τ).loc main_arg8)) (m ((c : Thread nD τ).loc main_arg10)) (m ((c : Thread nD τ).loc main_arg12)) (Blocks.node t r) f := by
  have hb4 : (fun a : (⟨1, ![64]⟩ : Shape).Idx => iblk m c 4 t (ix2 (0 : Fin 1) (a 0))) = (m ((c : Thread nD τ).loc main_arg6)) :=
    funext fun a => by rw [blk4_eq]; exact (V_bias12 m c (a 0)).trans (congrArg _ (eq_ix1 a).symm)
  have hb6 : (fun a : (⟨1, ![64]⟩ : Shape).Idx => iblk m c 6 t (ix2 (0 : Fin 1) (a 0))) = (m ((c : Thread nD τ).loc main_arg8)) :=
    funext fun a => by rw [blk6_eq]; exact (V_bias13 m c (a 0)).trans (congrArg _ (eq_ix1 a).symm)
  have hb8 : (fun a : (⟨1, ![64]⟩ : Shape).Idx => iblk m c 8 t (ix2 (0 : Fin 1) (a 0))) = (m ((c : Thread nD τ).loc main_arg10)) :=
    funext fun a => by rw [blk8_eq]; exact (V_bias14 m c (a 0)).trans (congrArg _ (eq_ix1 a).symm)
  have hb10 : (fun a : (⟨1, ![128]⟩ : Shape).Idx => iblk m c 10 t (ix2 (0 : Fin 1) (a 0))) = (m ((c : Thread nD τ).loc main_arg12)) :=
    funext fun a => by rw [blk10_eq]; exact (V_bias15 m c (a 0)).trans (congrArg _ (eq_ix1 a).symm)
  rw [hb4, hb6, hb8, hb10, blk3_eq, blk5_eq, blk7_eq, blk9_eq, V_main_arg5, V_main_arg7, V_main_arg9, V_main_arg11]
  exact nodeOut_congr _ _ _ _ _ _ _ _ _ _ _ _ r (Blocks.node t r) (fun i => blk0_apply m c t r i)
    (fun i => (blk1_apply m c t r i).trans (congrFun (V_main_arg0 m c) _)) f

/-- Point `t`'s contribution at `(g, f)` over the whole arrays: over the block's rows, the indicator that the node's id
    word is the word of `g` times the node's output at `f`. -/
theorem contrib_eq (c : Dev nD) (t : Fin cfg0.N) (g : Fin 256) (f : Fin 128) :
    contrib m c t.val (ix2 g f)
      = ∑ r : Fin 5000, (if BitVec.ofNat 32 g.val = (m ((c : Thread nD τ).loc main_arg4)) (ix1 (Blocks.node t r)) then (1 : EReal) else 0)
          * nodeOut (V m c main_v11) (m ((c : Thread nD τ).loc main_arg0)) (m ((c : Thread nD τ).loc main_arg5)) (m ((c : Thread nD τ).loc main_arg7)) (m ((c : Thread nD τ).loc main_arg9)) (m ((c : Thread nD τ).loc main_arg11)) (m ((c : Thread nD τ).loc main_arg6)) (m ((c : Thread nD τ).loc main_arg8)) (m ((c : Thread nD τ).loc main_arg10)) (m ((c : Thread nD τ).loc main_arg12)) (Blocks.node t r) f := by
  unfold contrib
  rw [dif_pos t.isLt]
  unfold blockSum
  refine Finset.sum_congr rfl fun r _ => ?_
  rw [show (⟨t.val, t.isLt⟩ : Fin cfg0.N) = t from rfl, blk2_apply, V_gids, nodeOut_block]

/-! ## The two graph-feature tables are one -/

/-- THE KERNEL'S GRAPH FEATURES ARE THE REFERENCE'S. At `(g, f)` the kernel's table is the sum over the two sweeps, their
    ten blocks and the blocks' rows of the indicator "the node's id word is the word of `g`" times the node's output row
    at `f`; the reference's is the sum of the output rows at `f` over the nodes whose id word read signed is `g`. The
    blocks' rows are all the nodes, each once, and a word below 256 names `g` read signed exactly when it is `g`'s word. -/
theorem graphFeat_eq (c : Dev nD) :
    Host.reduceAdd (F := Ideal) ((dats m 0 c).arrAt 11 cfg0.N) (constant S_ .f32 0x00000000#32)
        reducesTo_S2x256x128_S256x128_d0 h_S_
      = Cert.ReferenceIdeal.Read.val_main_v32 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext i
  obtain ⟨g, f, rfl⟩ : ∃ (g : Fin 256) (f : Fin 128), i = ix2 g f := ⟨i 0, i 1, eq_ix2 i⟩
  rw [final m c]
  refine (reduce_apply (result m c) g f).trans ?_
  rw [Cert.ReferenceIdeal.RefValue.graphFeat_apply, ← V_agg m c]
  simp only [result_apply]
  have hN : cfg0.N = 20 := N_0
  -- one sweep: its ten contributions are the sums over its blocks' rows of the nodes' terms
  have hsweep : ∀ c' : Fin 2, (0 : EReal) + ∑ s ∈ Finset.range 10, contrib m c (10 * c'.val + s) (ix2 g f)
      = ∑ s : Fin 10, ∑ r : Fin 5000,
          (fun n : Fin 100000 => (if BitVec.ofNat 32 g.val = (m ((c : Thread nD τ).loc main_arg4)) (ix1 n) then (1 : EReal) else 0)
            * nodeOut (V m c main_v11) (m ((c : Thread nD τ).loc main_arg0)) (m ((c : Thread nD τ).loc main_arg5)) (m ((c : Thread nD τ).loc main_arg7)) (m ((c : Thread nD τ).loc main_arg9)) (m ((c : Thread nD τ).loc main_arg11)) (m ((c : Thread nD τ).loc main_arg6)) (m ((c : Thread nD τ).loc main_arg8)) (m ((c : Thread nD τ).loc main_arg10)) (m ((c : Thread nD τ).loc main_arg12)) n f)
          (Gcn.node ⟨10 * c'.val + s.val, by omega⟩ r) := by
    intro c'
    rw [zero_add, Finset.sum_range]
    refine Finset.sum_congr rfl fun s _ => ?_
    exact contrib_eq m c ⟨10 * c'.val + s.val, by omega⟩ g f
  rw [Finset.sum_congr rfl (fun c' _ => hsweep c')]
  refine congrArg (fun t => (0 : EReal) + t) ((sum_nodes (fun n : Fin 100000 => (if BitVec.ofNat 32 g.val = (m ((c : Thread nD τ).loc main_arg4)) (ix1 n) then (1 : EReal) else 0)
            * nodeOut (V m c main_v11) (m ((c : Thread nD τ).loc main_arg0)) (m ((c : Thread nD τ).loc main_arg5)) (m ((c : Thread nD τ).loc main_arg7)) (m ((c : Thread nD τ).loc main_arg9)) (m ((c : Thread nD τ).loc main_arg11)) (m ((c : Thread nD τ).loc main_arg6)) (m ((c : Thread nD τ).loc main_arg8)) (m ((c : Thread nD τ).loc main_arg10)) (m ((c : Thread nD τ).loc main_arg12)) n f)).trans ?_)
  rw [Finset.sum_filter]
  refine Finset.sum_congr rfl fun n _ => ?_
  by_cases h : BitVec.ofNat 32 g.val = (m ((c : Thread nD τ).loc main_arg4)) (ix1 n)
  · rw [if_pos h, if_pos ((word_names_iff _ _ g.isLt).mp h), one_mul]
  · rw [if_neg h, if_neg (fun h' => h ((word_names_iff _ _ g.isLt).mpr h')), zero_mul]

/-! ## The kernel program's run, read back -/

/-- The value the kernel program's result ends at on core `c`: the prediction applied to the reference's
    graph-feature term of the launch contents of the arguments. -/
def resultOf (c : Dev nD) : Buf (Elt Ideal) ((c.tc : Thread nD τ).loc main_v23) :=
  predict (Cert.ReferenceIdeal.Read.val_main_v32 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))
    (m ((c : Thread nD τ).loc main_arg13)) (m ((c : Thread nD τ).loc main_arg14))

/-- Every weakly fair execution of the kernel program terminates with its result at `resultOf` and its arguments
    unchanged: the frame run's post, the host operations after the call read as the prediction of the sum of the two
    halves of the call's result, and that sum the reference's graph-feature table. -/
theorem run (ρ : Dev nD → PrngReg) :
    θ_run defs (onTc (τ := τ) (main (F := Ideal))) ⟨m, fun _ => 0, ρ⟩ (fun r => ∀ c : Dev nD,
      r.2.mem ((c.tc : Thread nD τ).loc main_v23) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨
      ((h c).2 main_v23 (Pipeline.mem_restRefs_of main_v23 (by decide) (by decide))).trans
        ((tail_eq m c).trans (congrArg (fun gf => predict gf (m ((c : Thread nD τ).loc main_arg13)) (m ((c : Thread nD τ).loc main_arg14)))
          (graphFeat_eq m c))),
      ((h c).1 1).trans (((dats m 0 c).arrAt_in 1 rfl _).trans ((A_eq m c 1).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 3).trans (((dats m 0 c).arrAt_in 3 rfl _).trans ((A_eq m c 3).trans (V_main_arg5 m c))),
      (((h c).2 main_arg6 (Pipeline.mem_restRefs_of main_arg6 (by decide) (by decide))).trans (W_main_arg6 m (dats m) c)),
      ((h c).1 5).trans (((dats m 0 c).arrAt_in 5 rfl _).trans ((A_eq m c 5).trans (V_main_arg7 m c))),
      (((h c).2 main_arg8 (Pipeline.mem_restRefs_of main_arg8 (by decide) (by decide))).trans (W_main_arg8 m (dats m) c)),
      ((h c).1 7).trans (((dats m 0 c).arrAt_in 7 rfl _).trans ((A_eq m c 7).trans (V_main_arg9 m c))),
      (((h c).2 main_arg10 (Pipeline.mem_restRefs_of main_arg10 (by decide) (by decide))).trans (W_main_arg10 m (dats m) c)),
      ((h c).1 9).trans (((dats m 0 c).arrAt_in 9 rfl _).trans ((A_eq m c 9).trans (V_main_arg11 m c))),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c))⟩) (run_main m ρ)

end Cert.KernelIdeal.Fold

end
-- ==== Proof.lean ====
/-
  A graph convolution layer with a sum readout and a linear prediction, on one device: the kernel against the
  reference, over the extended reals.

  Both programs first aggregate the neighbours' feature rows (a row lookup at the source ids, an accumulating scatter
  at the destination ids; the kernel narrows the table to sixteen bits before the lookup and widens after, which
  changes nothing at the exact values). The reference then computes every node's output row (two dense branches
  clamped at zero and added, a dense layer with a clamp, a last dense layer), scatters the rows into 256 graph rows
  by the nodes' graph ids, and predicts one number per graph. The kernel computes the same output rows 5000 nodes at
  a time, multiplies each block by its one-hot table of graph ids (so that a node whose id is outside [0, 256) adds
  nothing, exactly as the scatter drops it), accumulates ten blocks per core, and the host adds the two cores' tables
  and makes the same prediction. Addition of extended reals is commutative and associative, a one-hot entry is 0 or 1,
  and 0 · x = 0 and 1 · x = x for every extended real x, so no input needs to be finite for the two results to agree.

  The frames of the two kernel programs are the generated ones; the reference's is its generated run with the result
  dropped; the idealization rewrote nothing.
-/
import proofs.«405252_j57526791962625_2_alg».proof.Defs
import proofs.«405252_j57526791962625_2_alg».proof.Proof.Gen.Kernel
import proofs.«405252_j57526791962625_2_alg».proof.Proof.Gen.Kernel.Skeleton
import proofs.«405252_j57526791962625_2_alg».proof.Proof.Gen.Kernel.Launch
import proofs.«405252_j57526791962625_2_alg».proof.Proof.Gen.Kernel.Points
import proofs.«405252_j57526791962625_2_alg».proof.Proof.Gen.Kernel.Frame
import proofs.«405252_j57526791962625_2_alg».proof.Proof.Gen.KernelIdeal
import proofs.«405252_j57526791962625_2_alg».proof.Proof.Gen.KernelIdeal.Skeleton
import proofs.«405252_j57526791962625_2_alg».proof.Proof.Gen.KernelIdeal.Launch
import proofs.«405252_j57526791962625_2_alg».proof.Proof.Gen.KernelIdeal.Points
import proofs.«405252_j57526791962625_2_alg».proof.Proof.Gen.KernelIdeal.Frame
import proofs.«405252_j57526791962625_2_alg».proof.Proof.Gen.ReferenceIdeal
import proofs.«405252_j57526791962625_2_alg».proof.Proof.Gen.ReferenceIdeal.Run
import proofs.«405252_j57526791962625_2_alg».proof.Proof.Gen.ReferenceIdeal.Read
import proofs.«405252_j57526791962625_2_alg».proof.Proof.Gen.Pre_finite_inputs
import proofs.«405252_j57526791962625_2_alg».proof.Proof.KernelValue
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference program runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end at the prediction of one graph-feature table: the
    kernel's run ends there, and the reference's result term is that prediction by definition. -/
theorem algebraic : Cert.algebraic_KernelIdeal_ReferenceIdeal := by
  intro m ρ m' ρ' _ hagree
  refine ⟨fun c => Cert.KernelIdeal.Fold.resultOf m c, Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14⟩ := hagree c
  rw [e0, e2, e3, e4, e5, e6, e7, e8, e9, e10, e11, e12, e13, e14]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
